-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128 : Shape := ⟨3, ![8, 256, 128]⟩
abbrev S8x256x256x128 : Shape := ⟨4, ![8, 256, 256, 128]⟩
abbrev S128x128 : Shape := ⟨2, ![128, 128]⟩
abbrev S128 : Shape := ⟨1, ![128]⟩
abbrev S_ : Shape := ⟨0, ![]⟩

class Facts : Prop where
  bcast_S_S8x256x128 : S_.BroadcastsInDim S8x256x128 (![] : Fin 0 → Fin S8x256x128.rank)
  reducesTo_S8x256x128_S_d0_1_2 : S8x256x128.ReducesTo [0, 1, 2] S_
  h_S_ : 0 < S_.numel
  bcast_S_S8x256x256x128 : S_.BroadcastsInDim S8x256x256x128 (![] : Fin 0 → Fin S8x256x256x128.rank)
  reducesTo_S8x256x256x128_S_d0_1_2_3 : S8x256x256x128.ReducesTo [0, 1, 2, 3] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S8x256x128 .f32) (main_arg1 : FVec F S8x256x256x128 .f32) (main_arg2 : FVec F S128x128 .f32) (main_arg3 : FVec F S128 .f32) (main_arg4 : FVec F S128x128 .f32) (main_arg5 : FVec F S128 .f32) : IVec S_ 1 :=
  let main_v0 : FVec F S8x256x128 .f32 := Host.absf main_arg0
  let main_cst : FVec F S_ .f32 := constant S_ .f32 0x7F800000#32
  let main_v1 : FVec F S8x256x128 .f32 := broadcastInDim S8x256x128 ![] bcast_S_S8x256x128 main_cst
  let main_v2 : IVec S8x256x128 1 := cmpf .olt main_v0 main_v1
  let main_c : IVec S_ 1 := constantI S_ 1 1#1
  let main_v3 : IVec S_ 1 := (fun x v => Host.reduce IntOp.andi x v reducesTo_S8x256x128_S_d0_1_2 h_S_) main_v2 main_c
  let main_v4 : FVec F S8x256x256x128 .f32 := Host.absf main_arg1
  let main_cst_0 : FVec F S_ .f32 := constant S_ .f32 0x7F800000#32
  let main_v5 : FVec F S8x256x256x128 .f32 := broadcastInDim S8x256x256x128 ![] bcast_S_S8x256x256x128 main_cst_0
  let main_v6 : IVec S8x256x256x128 1 := cmpf .olt main_v4 main_v5
  let main_c_1 : IVec S_ 1 := constantI S_ 1 1#1
  let main_v7 : IVec S_ 1 := (fun x v => Host.reduce IntOp.andi x v reducesTo_S8x256x256x128_S_d0_1_2_3 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S8x256x128 : Shape := ⟨3, ![8, 256, 128]⟩
abbrev S8x256x256x128 : Shape := ⟨4, ![8, 256, 256, 128]⟩
abbrev S128x128 : Shape := ⟨2, ![128, 128]⟩
abbrev S128 : Shape := ⟨1, ![128]⟩
abbrev S1x256x128 : Shape := ⟨3, ![1, 256, 128]⟩
abbrev S256x128 : Shape := ⟨2, ![256, 128]⟩
abbrev S1x128 : Shape := ⟨2, ![1, 128]⟩
abbrev S1x32x256x128 : Shape := ⟨4, ![1, 32, 256, 128]⟩
abbrev S1x32x128 : Shape := ⟨3, ![1, 32, 128]⟩
abbrev S32x256x128 : Shape := ⟨3, ![32, 256, 128]⟩
abbrev S8192x128 : Shape := ⟨2, ![8192, 128]⟩
abbrev S32x128 : Shape := ⟨2, ![32, 128]⟩
abbrev S1x1x128 : Shape := ⟨3, ![1, 1, 128]⟩
abbrev S32x1x128 : Shape := ⟨3, ![32, 1, 128]⟩

abbrev nBuf : Space → Nat
  | .hbm => 10
  | .vmem => 16
  | .smem => 0
  | _ => 0

abbrev bufTy : (tb : Table) → Fin (tcTables nBuf tb) → BufTy
  | .hbm, ⟨0, _⟩ => ⟨S8x256x128, .f32⟩
  | .hbm, ⟨1, _⟩ => ⟨S8x256x256x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S8x256x128, .f32⟩
  | .hbm, ⟨9, _⟩ => ⟨S8x256x256x128, .f32⟩
  | .local _ .vmem, ⟨0, _⟩ => ⟨S1x256x128, .f32⟩
  | .local _ .vmem, ⟨1, _⟩ => ⟨S1x256x128, .f32⟩
  | .local _ .vmem, ⟨2, _⟩ => ⟨S128x128, .f32⟩
  | .local _ .vmem, ⟨3, _⟩ => ⟨S128, .f32⟩
  | .local _ .vmem, ⟨4, _⟩ => ⟨S1x256x128, .f32⟩
  | .local _ .vmem, ⟨5, _⟩ => ⟨S1x256x128, .f32⟩
  | .local _ .vmem, ⟨6, _⟩ => ⟨S1x32x256x128, .f32⟩
  | .local _ .vmem, ⟨7, _⟩ => ⟨S1x32x256x128, .f32⟩
  | .local _ .vmem, ⟨8, _⟩ => ⟨S1x32x128, .f32⟩
  | .local _ .vmem, ⟨9, _⟩ => ⟨S1x32x128, .f32⟩
  | .local _ .vmem, ⟨10, _⟩ => ⟨S1x256x128, .f32⟩
  | .local _ .vmem, ⟨11, _⟩ => ⟨S1x256x128, .f32⟩
  | .local _ .vmem, ⟨12, _⟩ => ⟨S128x128, .f32⟩
  | .local _ .vmem, ⟨13, _⟩ => ⟨S128, .f32⟩
  | .local _ .vmem, ⟨14, _⟩ => ⟨S1x32x256x128, .f32⟩
  | .local _ .vmem, ⟨15, _⟩ => ⟨S1x32x256x128, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 8], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage1_0 : Fin 2 → Memref sig .tc .vmem S1x32x256x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x32x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x32x256x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  transposes_S128x128_S128x128_1_0 : S128x128.Transposes [1, 0] S128x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S256x128 : S1x128.Broadcasts S256x128
  shapeCasts_S256x128_S1x256x128 : S256x128.ShapeCasts S1x256x128
  inb_S1x32x256x128_S1x32x256x128_0_0_0_0 : ∀ a, (![0, 0, 0, 0] : Fin 4 → Nat) a + S1x32x256x128.size a ≤ S1x32x256x128.size a
  h_S1x32x256x128 : 0 < S1x32x256x128.numel
  shapeCasts_S1x32x256x128_S32x256x128 : S1x32x256x128.ShapeCasts S32x256x128
  shapeCasts_S32x256x128_S8192x128 : S32x256x128.ShapeCasts S8192x128
  shapeCasts_S8192x128_S32x256x128 : S8192x128.ShapeCasts S32x256x128
  inb_S1x32x128_S1x32x128_0_0_0 : ∀ a, (![0, 0, 0] : Fin 3 → Nat) a + S1x32x128.size a ≤ S1x32x128.size a
  h_S1x32x128 : 0 < S1x32x128.numel
  shapeCasts_S1x32x128_S32x128 : S1x32x128.ShapeCasts S32x128
  shapeCasts_S128_S1x1x128 : S128.ShapeCasts S1x1x128
  broadcasts_S1x1x128_S32x256x128 : S1x1x128.Broadcasts S32x256x128
  shapeCasts_S32x128_S32x1x128 : S32x128.ShapeCasts S32x1x128
  broadcasts_S32x1x128_S32x256x128 : S32x1x128.Broadcasts S32x256x128
  broadcasts_S1x256x128_S32x256x128 : S1x256x128.Broadcasts S32x256x128
  shapeCasts_S32x256x128_S1x32x256x128 : S32x256x128.ShapeCasts S1x32x256x128
  dot_S256x128_S128x128_S256x128_1_0_0_1_n_n_wf : DotDims.WF S256x128 S128x128 S256x128 [1] [0] [0] [1] [] []
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x128.size a ≤ S8x256x128.size a
  hwx0_0 : ∀ i : grid0.Coords, EltTy.bits .f32 = 32 ∨ (Rect.block (s := S8x256x128) S1x256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x128.size a ≤ S8x256x128.size a
  hwx0_3 : ∀ i : grid0.Coords, EltTy.bits .f32 = 32 ∨ (Rect.block (s := S8x256x128) S1x256x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x256x128.size a ≤ S8x256x256x128.size a
  hwx1_0 : ∀ i : grid1.Coords, EltTy.bits .f32 = 32 ∨ (Rect.block (s := S8x256x256x128) S1x32x256x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x32x128.size a ≤ S8x256x128.size a
  hwx1_1 : ∀ i : grid1.Coords, EltTy.bits .f32 = 32 ∨ (Rect.block (s := S8x256x128) S1x32x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x128.size a ≤ S8x256x128.size a
  hwx1_2 : ∀ i : grid1.Coords, EltTy.bits .f32 = 32 ∨ (Rect.block (s := S8x256x128) S1x256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x32x256x128.size a ≤ S8x256x256x128.size a
  hwx1_5 : ∀ i : grid1.Coords, EltTy.bits .f32 = 32 ∨ (Rect.block (s := S8x256x256x128) S1x32x256x128.size (cc1_transform_5 i) (hinb1_5 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_arg0) S1x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x32x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x32x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg3) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x32x256x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8x256x128 : Shape := ⟨3, ![8, 256, 128]⟩
abbrev S8x256x256x128 : Shape := ⟨4, ![8, 256, 256, 128]⟩
abbrev S128x128 : Shape := ⟨2, ![128, 128]⟩
abbrev S128 : Shape := ⟨1, ![128]⟩
abbrev S1x1x1x128 : Shape := ⟨4, ![1, 1, 1, 128]⟩
abbrev S1x1x128 : Shape := ⟨3, ![1, 1, 128]⟩
abbrev S8x256x1x128 : Shape := ⟨4, ![8, 256, 1, 128]⟩
abbrev S8x1x256x128 : Shape := ⟨4, ![8, 1, 256, 128]⟩

abbrev nBuf : Space → Nat
  | .hbm => 20
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S8x256x256x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S8x256x256x128, .f32⟩
  | .hbm, ⟨7, _⟩ => ⟨S1x1x1x128, .f32⟩
  | .hbm, ⟨8, _⟩ => ⟨S8x256x256x128, .f32⟩
  | .hbm, ⟨9, _⟩ => ⟨S8x256x256x128, .f32⟩
  | .hbm, ⟨10, _⟩ => ⟨S8x256x128, .f32⟩
  | .hbm, ⟨11, _⟩ => ⟨S1x1x128, .f32⟩
  | .hbm, ⟨12, _⟩ => ⟨S8x256x128, .f32⟩
  | .hbm, ⟨13, _⟩ => ⟨S8x256x128, .f32⟩
  | .hbm, ⟨14, _⟩ => ⟨S8x256x1x128, .f32⟩
  | .hbm, ⟨15, _⟩ => ⟨S8x256x256x128, .f32⟩
  | .hbm, ⟨16, _⟩ => ⟨S8x256x256x128, .f32⟩
  | .hbm, ⟨17, _⟩ => ⟨S8x1x256x128, .f32⟩
  | .hbm, ⟨18, _⟩ => ⟨S8x256x256x128, .f32⟩
  | .hbm, ⟨19, _⟩ => ⟨S8x256x256x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S8x256x256x128_0_1_2_3 : S1x1x1x128.BroadcastsInDim S8x256x256x128 (![0, 1, 2, 3] : Fin 4 → Fin S8x256x256x128.rank)
  bcast_S128_S1x1x128_2 : S128.BroadcastsInDim S1x1x128 (![2] : Fin 1 → Fin S1x1x128.rank)
  bcast_S1x1x128_S8x256x128_0_1_2 : S1x1x128.BroadcastsInDim S8x256x128 (![0, 1, 2] : Fin 3 → Fin S8x256x128.rank)
  bcast_S8x256x128_S8x256x1x128_0_1_3 : S8x256x128.BroadcastsInDim S8x256x1x128 (![0, 1, 3] : Fin 3 → Fin S8x256x1x128.rank)
  bcast_S8x256x1x128_S8x256x256x128_0_1_2_3 : S8x256x1x128.BroadcastsInDim S8x256x256x128 (![0, 1, 2, 3] : Fin 4 → Fin S8x256x256x128.rank)
  bcast_S8x256x128_S8x1x256x128_0_2_3 : S8x256x128.BroadcastsInDim S8x1x256x128 (![0, 2, 3] : Fin 3 → Fin S8x1x256x128.rank)
  bcast_S8x1x256x128_S8x256x256x128_0_1_2_3 : S8x1x256x128.BroadcastsInDim S8x256x256x128 (![0, 1, 2, 3] : Fin 4 → Fin S8x256x256x128.rank)
  dot_S8x256x256x128_S128x128_S8x256x256x128_3_1_012_0_n_n_wf : DotDims.WF S8x256x256x128 S128x128 S8x256x256x128 [3] [1] [0, 1, 2] [0] [] []
  dot_S8x256x128_S128x128_S8x256x128_2_1_01_0_n_n_wf : DotDims.WF S8x256x128 S128x128 S8x256x128 [2] [1] [0, 1] [0] [] []

variable [Facts₀]

def dot_S8x256x256x128_S128x128_S8x256x256x128_3_1_012_0_n_n : DotDims S8x256x256x128 S128x128 S8x256x256x128 where
  lhsContracting := [3]
  rhsContracting := [1]
  lhsNonContracting := [0, 1, 2]
  rhsNonContracting := [0]
  lhsBatch := []
  rhsBatch := []
  wf := dot_S8x256x256x128_S128x128_S8x256x256x128_3_1_012_0_n_n_wf
def dot_S8x256x128_S128x128_S8x256x128_2_1_01_0_n_n : DotDims S8x256x128 S128x128 S8x256x128 where
  lhsContracting := [2]
  rhsContracting := [1]
  lhsNonContracting := [0, 1]
  rhsNonContracting := [0]
  lhsBatch := []
  rhsBatch := []
  wf := dot_S8x256x128_S128x128_S8x256x128_2_1_01_0_n_n_wf

class Facts : Prop extends Facts₀ where

variable [Facts]
-- ==== Proof.NodeBody.lean ====
/-
  The node projection, the program's first kernel region: at grid point b (one per batch entry, 8 in all) the body
  loads the [1, 256, 128] block b of x, the whole transposed weight matrix [128, 128] and the whole bias [128], and
  stores one [1, 256, 128] block: the block's rows times the matrix, plus the bias on every row.

  Stated at any float instance and at a PARAMETER V, the buffer contents the region is entered from: what each
  window's block is at a point, what the one store leaves in the output's buffer as a function of the three loaded
  blocks, the body's triple, and the region's proof data with its obligation at every point. The weight and bias
  windows are fetched at the first point only; their buffers still hold the (constant) block at the later points.
-/
import proofs.«100669_j2001454760694_1_alg».proof.Proof.Gen.KernelIdeal.Launch
import proofs.«100669_j2001454760694_1_alg».proof.Proof.Gen.KernelIdeal.Skeleton
import proofs.«100669_j2001454760694_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window w's block at point t, read off its array as the region finds it. -/
def nodeBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's buffer holds block t at point t: it is fetched at every point. -/
theorem nodeBefore0_of {c : Dev nD} (dat : Dat τ (Elt F) Unit ℕ (UR sig nD τ) ℕ cfg0 c) (hA : dat.A 0 = V c (Pipeline.arrRef spec0 0))
    (hafter : ∀ t, dat.after 0 t = nodeBlk V c 0 t) (t : Fin cfg0.N) (d) : dat.before 0 t d = nodeBlk V c 0 t :=
  (dat.before_in_eq_fetched 0 rfl (fun _ => rfl) (fun _ _ _ => rfl) (fun t => by rw [hafter]; unfold Dat.blockOf nodeBlk; rw [hA]; try rfl) t d).trans
    (by unfold Dat.fetched Dat.blockOf nodeBlk; rw [hA]; try rfl)

/-- The weight window's buffer holds the whole matrix at every point, fetched there or not: its block index never moves. -/
theorem nodeBefore1_of {c : Dev nD} (dat : Dat τ (Elt F) Unit ℕ (UR sig nD τ) ℕ cfg0 c) (hA : dat.A 1 = V c (Pipeline.arrRef spec0 1))
    (hafter : ∀ t, dat.after 1 t = nodeBlk V c 1 t) (t : Fin cfg0.N) (d) : dat.before 1 t d = nodeBlk V c 1 t :=
  (dat.before_in_eq_fetched 1 rfl (fun _ => rfl) (fun _ _ _ => rfl) (fun t => by rw [hafter]; unfold Dat.blockOf nodeBlk; rw [hA]; try rfl) t d).trans
    (by unfold Dat.fetched Dat.blockOf nodeBlk; rw [hA]; try rfl)

/-- The bias window's buffer holds the whole bias at every point, fetched there or not. -/
theorem nodeBefore2_of {c : Dev nD} (dat : Dat τ (Elt F) Unit ℕ (UR sig nD τ) ℕ cfg0 c) (hA : dat.A 2 = V c (Pipeline.arrRef spec0 2))
    (hafter : ∀ t, dat.after 2 t = nodeBlk V c 2 t) (t : Fin cfg0.N) (d) : dat.before 2 t d = nodeBlk V c 2 t :=
  (dat.before_in_eq_fetched 2 rfl (fun _ => rfl) (fun _ _ _ => rfl) (fun t => by rw [hafter]; unfold Dat.blockOf nodeBlk; rw [hA]; try rfl) t d).trans
    (by unfold Dat.fetched Dat.blockOf nodeBlk; rw [hA]; try rfl)

/-! ## The body's accesses: each a whole buffer -/

abbrev rNodeX : Rect S1x256x128 := Rect.unit (s := S1x256x128) ![0, 0, 0] S1x256x128.size inb_S1x256x128_S1x256x128_0_0_0
abbrev rNodeW : Rect S128x128 := Rect.unit (s := S128x128) ![0, 0] S128x128.size inb_S128x128_S128x128_0_0
abbrev rNodeB : Rect S128 := Rect.unit (s := S128) ![0] S128.size inb_S128_S128_0

/-! ## What the body leaves in the output's buffer -/

/-- The output's buffer after the body, from the three loaded blocks: its one store, over the whole buffer. -/
def nodeOut (x0 : Vec F S1x256x128 .f32) (x1 : Vec F S128x128 .f32) (x2 : Vec F S128 .f32) : Vec F S1x256x128 .f32 :=
  View.canon [⟨rNodeX, k0_pay1 (View.ld x0 rNodeX) (View.ld x1 rNodeW) (View.ld x2 rNodeB)⟩]

/-- The one store covers the buffer. -/
theorem nodeCover (p0 : Vec F S1x256x128 .f32) (y : S1x256x128.Idx) :
    ∃ pc ∈ ([⟨rNodeX, p0⟩] : List (View.Piece (Elt F) S1x256x128 .f32)), y ∈ pc.1.set :=
  View.cover_of_tiled [⟨rNodeX, p0⟩] S1x256x128.size (by rfl) y

/-! ## The body's triple -/

set_option maxHeartbeats 1000000 in
/-- The body on whole staging memrefs, the inputs' at read contents x0, x1, x2 and the output's at anything, runs to the
    continuation holding the inputs' as they were and the output's at `nodeOut` of them. -/
theorem nodeSound (c : Dev nD) (E : Set ℕ) (i : grid0.Coords)
    (arg1 : Memref sig .tc .vmem S1x256x128 .f32) (harg1 : arg1.IsWhole) (arg2 : Memref sig .tc .vmem S128x128 .f32) (harg2 : arg2.IsWhole)
    (arg3 : Memref sig .tc .vmem S128 .f32) (harg3 : arg3.IsWhole) (arg4 : Memref sig .tc .vmem S1x256x128 .f32) (harg4 : arg4.IsWhole)
    (x0 : Vec F S1x256x128 .f32) (x1 : Vec F S128x128 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (nodeOut x0 x1 x2)) -∗ K ⟨⟩))
      ⊢ wp frame (wpE (defs₀ (F := F)) Variants.none c none) E (cc0__vx_kernel i arg1 harg1 arg2 harg2 arg3 harg3 arg4 harg4) K := by
  simp only [cc0__vx_kernel_eq_skeleton]; unfold cc0__vx_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (nodeCover _)

/-! ## The region's proof data -/

/-- The arrays as the region finds them; after the body at point t each input's buffer at its block and the output's
    at `nodeOut` of the three; the invariant the scoped rest and the generator register, untouched; nothing owed;
    full shares. -/
def nodeDat (c : Dev nD) : Dat τ (Elt F) Unit ℕ (UR sig nD τ) ℕ cfg0 c where
  A w := V c (Pipeline.arrRef spec0 w)
  after w t := match w with
    | ⟨0, _⟩ => nodeBlk V c 0 t
    | ⟨1, _⟩ => nodeBlk V c 1 t
    | ⟨2, _⟩ => nodeBlk V c 2 t
    | ⟨3, _⟩ => nodeOut (nodeBlk V c 0 t) (nodeBlk V c 1 t) (nodeBlk V c 2 t)
  Φ _ := Pipeline.ΦA spec0 c
  q _ := fullShare
  owed _ := 0

theorem nodeDat_A (c : Dev nD) (w : Fin cfg0.W) : (nodeDat V c).A w = V c (Pipeline.arrRef spec0 w) := by
  dsimp only [nodeDat]

theorem nodeAfter0 (c : Dev nD) (t : Fin cfg0.N) : (nodeDat V c).after 0 t = nodeBlk V c 0 t := by dsimp only [nodeDat]
theorem nodeAfter1 (c : Dev nD) (t : Fin cfg0.N) : (nodeDat V c).after 1 t = nodeBlk V c 1 t := by dsimp only [nodeDat]
theorem nodeAfter2 (c : Dev nD) (t : Fin cfg0.N) : (nodeDat V c).after 2 t = nodeBlk V c 2 t := by dsimp only [nodeDat]
theorem nodeAfter3 (c : Dev nD) (t : Fin cfg0.N) :
    (nodeDat V c).after 3 t = nodeOut (nodeBlk V c 0 t) (nodeBlk V c 1 t) (nodeBlk V c 2 t) := by dsimp only [nodeDat]

theorem nodeBefore0 (c : Dev nD) (t : Fin cfg0.N) (d) : (nodeDat V c).before 0 t d = nodeBlk V c 0 t :=
  nodeBefore0_of V (nodeDat V c) (nodeDat_A V c 0) (nodeAfter0 V c) t d
theorem nodeBefore1 (c : Dev nD) (t : Fin cfg0.N) (d) : (nodeDat V c).before 1 t d = nodeBlk V c 1 t :=
  nodeBefore1_of V (nodeDat V c) (nodeDat_A V c 1) (nodeAfter1 V c) t d
theorem nodeBefore2 (c : Dev nD) (t : Fin cfg0.N) (d) : (nodeDat V c).before 2 t d = nodeBlk V c 2 t :=
  nodeBefore2_of V (nodeDat V c) (nodeDat_A V c 2) (nodeAfter2 V c) t d

/-! ## The body obligation, at a generic point -/

def nodePre (c : Dev nD) (t : Fin cfg0.N) : sProp 𝕄 :=
  iprop((nodeDat V c).Φ t.castSucc ∗ (nodeDat V c).owesAt () t.castSucc
    ∗ (∃ d, owns (c : Thread nD τ) (st0_0 t) fullShare ((nodeDat V c).before 0 t d))
    ∗ (∃ d, owns (c : Thread nD τ) (st0_1 t) fullShare ((nodeDat V c).before 1 t d))
    ∗ (∃ d, owns (c : Thread nD τ) (st0_2 t) fullShare ((nodeDat V c).before 2 t d))
    ∗ (∃ d, owns (c : Thread nD τ) (st0_3 t) fullShare ((nodeDat V c).before 3 t d)))

def nodePost (c : Dev nD) (t : Fin cfg0.N) : sProp 𝕄 :=
  iprop((nodeDat V c).Φ t.succ ∗ (nodeDat V c).owesAt () t.succ
    ∗ owns (c : Thread nD τ) (st0_0 t) fullShare ((nodeDat V c).after 0 t)
    ∗ owns (c : Thread nD τ) (st0_1 t) fullShare ((nodeDat V c).after 1 t)
    ∗ owns (c : Thread nD τ) (st0_2 t) fullShare ((nodeDat V c).after 2 t)
    ∗ owns (c : Thread nD τ) (st0_3 t) fullShare ((nodeDat V c).after 3 t))

/-- The body at any point: the inputs' memrefs hold their blocks, so the triple applies; the invariant and what the core
    owes pass through unread. -/
theorem nodeSoundAt (c : Dev nD) (t : Fin cfg0.N) :
    nodePre V c t ⊢ wp frame (wpE (defs₀ (F := F)) Variants.none c none) Set.univ (bodyAt0 t) (fun _ => nodePost V c t) := by
  unfold nodePre nodePost bodyAt0
  simp only [nodeBefore0, nodeBefore1, nodeBefore2]
  rw [show (nodeDat V c).Φ t.succ = (nodeDat V c).Φ t.castSucc from rfl,
    show (nodeDat V c).owesAt () t.succ = (nodeDat V c).owesAt () t.castSucc from rfl,
    nodeAfter0, nodeAfter1, nodeAfter2, nodeAfter3]
  iintro ⟨HΦ, Ho, ⟨%d0, H0⟩, ⟨%d1, H1⟩, ⟨%d2, H2⟩, ⟨%d3, H3⟩⟩
  iapply (nodeSound c Set.univ _ _ _ _ _ _ _ _ _ (nodeBlk V c 0 t) (nodeBlk V c 1 t) (nodeBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem nodeObligation (c : Dev nD) : BodyObligation (nodeDat (F := F) V c) (defs₀ (F := F)) Variants.none () Set.univ := fun t => by
  rw [bigSep_W0, bigSep_W0]
  exact nodeSoundAt V c t

end

end Cert.KernelIdeal.Frame

end
-- ==== Proof.EdgeBody.lean ====
/-
  The edge update, the program's second kernel region: at grid point (b, i) (8 × 8 points) the body loads the
  [1, 32, 256, 128] block of the edge features (batch b, rows 32 i … 32 i + 31), the [1, 32, 128] block of the node
  projections for those rows, the [1, 256, 128] block of the node projections of batch b (all 256 columns), the whole
  transposed weight matrix and the whole bias, and stores one [1, 32, 256, 128] block: each edge's features times the
  matrix, plus the bias, plus the row node's projection, plus the column node's projection.

  The two node-projection windows read ONE array; each holds half of it (the left and the right half share), which is
  all a read needs. Stated at any float instance and at a parameter V, the contents the region is entered from.
-/
import proofs.«100669_j2001454760694_1_alg».proof.Proof.Gen.KernelIdeal.Launch
import proofs.«100669_j2001454760694_1_alg».proof.Proof.Gen.KernelIdeal.Skeleton
import proofs.«100669_j2001454760694_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window w's block at point t, read off its array as the region finds it. -/
def edgeBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The edge-feature window's buffer holds its block at every point (fetched at every point). -/
theorem edgeBefore0_of {c : Dev nD} (dat : Dat τ (Elt F) Unit ℕ (UR sig nD τ) ℕ cfg1 c) (hA : dat.A 0 = V c (Pipeline.arrRef spec1 0))
    (hafter : ∀ t, dat.after 0 t = edgeBlk V c 0 t) (t : Fin cfg1.N) (d) : dat.before 0 t d = edgeBlk V c 0 t :=
  (dat.before_in_eq_fetched 0 rfl (fun _ => rfl) (fun _ _ _ => rfl) (fun t => by rw [hafter]; unfold Dat.blockOf edgeBlk; rw [hA]; try rfl) t d).trans
    (by unfold Dat.fetched Dat.blockOf edgeBlk; rw [hA]; try rfl)

/-- The row-projection window's buffer holds its block at every point. -/
theorem edgeBefore1_of {c : Dev nD} (dat : Dat τ (Elt F) Unit ℕ (UR sig nD τ) ℕ cfg1 c) (hA : dat.A 1 = V c (Pipeline.arrRef spec1 1))
    (hafter : ∀ t, dat.after 1 t = edgeBlk V c 1 t) (t : Fin cfg1.N) (d) : dat.before 1 t d = edgeBlk V c 1 t :=
  (dat.before_in_eq_fetched 1 rfl (fun _ => rfl) (fun _ _ _ => rfl) (fun t => by rw [hafter]; unfold Dat.blockOf edgeBlk; rw [hA]; try rfl) t d).trans
    (by unfold Dat.fetched Dat.blockOf edgeBlk; rw [hA]; try rfl)

/-- The column-projection window's buffer holds its block at every point, fetched there or not: its block index moves only with the batch. -/
theorem edgeBefore2_of {c : Dev nD} (dat : Dat τ (Elt F) Unit ℕ (UR sig nD τ) ℕ cfg1 c) (hA : dat.A 2 = V c (Pipeline.arrRef spec1 2))
    (hafter : ∀ t, dat.after 2 t = edgeBlk V c 2 t) (t : Fin cfg1.N) (d) : dat.before 2 t d = edgeBlk V c 2 t :=
  (dat.before_in_eq_fetched 2 rfl (fun _ => rfl) (fun _ _ _ => rfl) (fun t => by rw [hafter]; unfold Dat.blockOf edgeBlk; rw [hA]; try rfl) t d).trans
    (by unfold Dat.fetched Dat.blockOf edgeBlk; rw [hA]; try rfl)

/-- The weight window's buffer holds the whole matrix at every point: its block index never moves. -/
theorem edgeBefore3_of {c : Dev nD} (dat : Dat τ (Elt F) Unit ℕ (UR sig nD τ) ℕ cfg1 c) (hA : dat.A 3 = V c (Pipeline.arrRef spec1 3))
    (hafter : ∀ t, dat.after 3 t = edgeBlk V c 3 t) (t : Fin cfg1.N) (d) : dat.before 3 t d = edgeBlk V c 3 t :=
  (dat.before_in_eq_fetched 3 rfl (fun _ => rfl) (fun _ _ _ => rfl) (fun t => by rw [hafter]; unfold Dat.blockOf edgeBlk; rw [hA]; try rfl) t d).trans
    (by unfold Dat.fetched Dat.blockOf edgeBlk; rw [hA]; try rfl)

/-- The bias window's buffer holds the whole bias at every point. -/
theorem edgeBefore4_of {c : Dev nD} (dat : Dat τ (Elt F) Unit ℕ (UR sig nD τ) ℕ cfg1 c) (hA : dat.A 4 = V c (Pipeline.arrRef spec1 4))
    (hafter : ∀ t, dat.after 4 t = edgeBlk V c 4 t) (t : Fin cfg1.N) (d) : dat.before 4 t d = edgeBlk V c 4 t :=
  (dat.before_in_eq_fetched 4 rfl (fun _ => rfl) (fun _ _ _ => rfl) (fun t => by rw [hafter]; unfold Dat.blockOf edgeBlk; rw [hA]; try rfl) t d).trans
    (by unfold Dat.fetched Dat.blockOf edgeBlk; rw [hA]; try rfl)

/-! ## The body's accesses: each a whole buffer -/

abbrev rEdgeE : Rect S1x32x256x128 := Rect.unit (s := S1x32x256x128) ![0, 0, 0, 0] S1x32x256x128.size inb_S1x32x256x128_S1x32x256x128_0_0_0_0
abbrev rEdgeRow : Rect S1x32x128 := Rect.unit (s := S1x32x128) ![0, 0, 0] S1x32x128.size inb_S1x32x128_S1x32x128_0_0_0
abbrev rEdgeCol : Rect S1x256x128 := Rect.unit (s := S1x256x128) ![0, 0, 0] S1x256x128.size inb_S1x256x128_S1x256x128_0_0_0
abbrev rEdgeW : Rect S128x128 := Rect.unit (s := S128x128) ![0, 0] S128x128.size inb_S128x128_S128x128_0_0
abbrev rEdgeB : Rect S128 := Rect.unit (s := S128) ![0] S128.size inb_S128_S128_0

/-! ## What the body leaves in the output's buffer -/

/-- The output's buffer after the body, from the five loaded blocks (edge features, row projections, column
    projections, weights, bias): its one store, over the whole buffer. -/
def edgeOut (x0 : Vec F S1x32x256x128 .f32) (x1 : Vec F S1x32x128 .f32) (x2 : Vec F S1x256x128 .f32)
    (x3 : Vec F S128x128 .f32) (x4 : Vec F S128 .f32) : Vec F S1x32x256x128 .f32 :=
  View.canon [⟨rEdgeE, k1_pay1 (View.ld x0 rEdgeE) (View.ld x3 rEdgeW) (View.ld x4 rEdgeB) (View.ld x1 rEdgeRow) (View.ld x2 rEdgeCol)⟩]

/-- The one store covers the buffer. -/
theorem edgeCover (p0 : Vec F S1x32x256x128 .f32) (y : S1x32x256x128.Idx) :
    ∃ pc ∈ ([⟨rEdgeE, p0⟩] : List (View.Piece (Elt F) S1x32x256x128 .f32)), y ∈ pc.1.set :=
  View.cover_of_tiled [⟨rEdgeE, p0⟩] S1x32x256x128.size (by rfl) y

/-! ## The body's triple -/

set_option maxHeartbeats 1000000 in
/-- The body on whole staging memrefs, the inputs' at read contents x0 … x4 and the output's at anything, runs to the
    continuation holding the inputs' as they were and the output's at `edgeOut` of them. -/
theorem edgeSound (c : Dev nD) (E : Set ℕ) (i : grid1.Coords)
    (arg2 : Memref sig .tc .vmem S1x32x256x128 .f32) (harg2 : arg2.IsWhole) (arg3 : Memref sig .tc .vmem S1x32x128 .f32) (harg3 : arg3.IsWhole)
    (arg4 : Memref sig .tc .vmem S1x256x128 .f32) (harg4 : arg4.IsWhole) (arg5 : Memref sig .tc .vmem S128x128 .f32) (harg5 : arg5.IsWhole)
    (arg6 : Memref sig .tc .vmem S128 .f32) (harg6 : arg6.IsWhole) (arg7 : Memref sig .tc .vmem S1x32x256x128 .f32) (harg7 : arg7.IsWhole)
    (x0 : Vec F S1x32x256x128 .f32) (x1 : Vec F S1x32x128 .f32) (x2 : Vec F S1x256x128 .f32) (x3 : Vec F S128x128 .f32) (x4 : Vec F S128 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4
        ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (edgeOut x0 x1 x2 x3 x4)) -∗ K ⟨⟩))
      ⊢ wp frame (wpE (defs₀ (F := F)) Variants.none c none) E
          (cc1__edge_kernel i arg2 harg2 arg3 harg3 arg4 harg4 arg5 harg5 arg6 harg6 arg7 harg7) K := by
  simp only [cc1__edge_kernel_eq_skeleton]; unfold cc1__edge_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (edgeCover _)

/-! ## The region's proof data -/

/-- The arrays as the region finds them; after the body at point t each input's buffer at its block and the output's
    at `edgeOut` of the five; the invariant the scoped rest and the generator register, untouched; nothing owed. The
    two windows on the node projections' array hold its left and its right half; every other input its array whole. -/
def edgeDat (c : Dev nD) : Dat τ (Elt F) Unit ℕ (UR sig nD τ) ℕ cfg1 c where
  A w := V c (Pipeline.arrRef spec1 w)
  after w t := match w with
    | ⟨0, _⟩ => edgeBlk V c 0 t
    | ⟨1, _⟩ => edgeBlk V c 1 t
    | ⟨2, _⟩ => edgeBlk V c 2 t
    | ⟨3, _⟩ => edgeBlk V c 3 t
    | ⟨4, _⟩ => edgeBlk V c 4 t
    | ⟨5, _⟩ => edgeOut (edgeBlk V c 0 t) (edgeBlk V c 1 t) (edgeBlk V c 2 t) (edgeBlk V c 3 t) (edgeBlk V c 4 t)
  Φ _ := Pipeline.ΦA spec1 c
  q w := match w with
    | ⟨1, _⟩ => fullShare.left
    | ⟨2, _⟩ => fullShare.right
    | _ => fullShare
  owed _ := 0

theorem edgeDat_A (c : Dev nD) (w : Fin cfg1.W) : (edgeDat V c).A w = V c (Pipeline.arrRef spec1 w) := by
  dsimp only [edgeDat]

theorem edgeAfter0 (c : Dev nD) (t : Fin cfg1.N) : (edgeDat V c).after 0 t = edgeBlk V c 0 t := by dsimp only [edgeDat]
theorem edgeAfter1 (c : Dev nD) (t : Fin cfg1.N) : (edgeDat V c).after 1 t = edgeBlk V c 1 t := by dsimp only [edgeDat]
theorem edgeAfter2 (c : Dev nD) (t : Fin cfg1.N) : (edgeDat V c).after 2 t = edgeBlk V c 2 t := by dsimp only [edgeDat]
theorem edgeAfter3 (c : Dev nD) (t : Fin cfg1.N) : (edgeDat V c).after 3 t = edgeBlk V c 3 t := by dsimp only [edgeDat]
theorem edgeAfter4 (c : Dev nD) (t : Fin cfg1.N) : (edgeDat V c).after 4 t = edgeBlk V c 4 t := by dsimp only [edgeDat]
theorem edgeAfter5 (c : Dev nD) (t : Fin cfg1.N) :
    (edgeDat V c).after 5 t = edgeOut (edgeBlk V c 0 t) (edgeBlk V c 1 t) (edgeBlk V c 2 t) (edgeBlk V c 3 t) (edgeBlk V c 4 t) := by
  dsimp only [edgeDat]

theorem edgeBefore0 (c : Dev nD) (t : Fin cfg1.N) (d) : (edgeDat V c).before 0 t d = edgeBlk V c 0 t :=
  edgeBefore0_of V (edgeDat V c) (edgeDat_A V c 0) (edgeAfter0 V c) t d
theorem edgeBefore1 (c : Dev nD) (t : Fin cfg1.N) (d) : (edgeDat V c).before 1 t d = edgeBlk V c 1 t :=
  edgeBefore1_of V (edgeDat V c) (edgeDat_A V c 1) (edgeAfter1 V c) t d
theorem edgeBefore2 (c : Dev nD) (t : Fin cfg1.N) (d) : (edgeDat V c).before 2 t d = edgeBlk V c 2 t :=
  edgeBefore2_of V (edgeDat V c) (edgeDat_A V c 2) (edgeAfter2 V c) t d
theorem edgeBefore3 (c : Dev nD) (t : Fin cfg1.N) (d) : (edgeDat V c).before 3 t d = edgeBlk V c 3 t :=
  edgeBefore3_of V (edgeDat V c) (edgeDat_A V c 3) (edgeAfter3 V c) t d
theorem edgeBefore4 (c : Dev nD) (t : Fin cfg1.N) (d) : (edgeDat V c).before 4 t d = edgeBlk V c 4 t :=
  edgeBefore4_of V (edgeDat V c) (edgeDat_A V c 4) (edgeAfter4 V c) t d

/-! ## The body obligation, at a generic point -/

def edgePre (c : Dev nD) (t : Fin cfg1.N) : sProp 𝕄 :=
  iprop((edgeDat V c).Φ t.castSucc ∗ (edgeDat V c).owesAt () t.castSucc
    ∗ (∃ d, owns (c : Thread nD τ) (st1_0 t) fullShare ((edgeDat V c).before 0 t d))
    ∗ (∃ d, owns (c : Thread nD τ) (st1_1 t) fullShare ((edgeDat V c).before 1 t d))
    ∗ (∃ d, owns (c : Thread nD τ) (st1_2 t) fullShare ((edgeDat V c).before 2 t d))
    ∗ (∃ d, owns (c : Thread nD τ) (st1_3 t) fullShare ((edgeDat V c).before 3 t d))
    ∗ (∃ d, owns (c : Thread nD τ) (st1_4 t) fullShare ((edgeDat V c).before 4 t d))
    ∗ (∃ d, owns (c : Thread nD τ) (st1_5 t) fullShare ((edgeDat V c).before 5 t d)))

def edgePost (c : Dev nD) (t : Fin cfg1.N) : sProp 𝕄 :=
  iprop((edgeDat V c).Φ t.succ ∗ (edgeDat V c).owesAt () t.succ
    ∗ owns (c : Thread nD τ) (st1_0 t) fullShare ((edgeDat V c).after 0 t)
    ∗ owns (c : Thread nD τ) (st1_1 t) fullShare ((edgeDat V c).after 1 t)
    ∗ owns (c : Thread nD τ) (st1_2 t) fullShare ((edgeDat V c).after 2 t)
    ∗ owns (c : Thread nD τ) (st1_3 t) fullShare ((edgeDat V c).after 3 t)
    ∗ owns (c : Thread nD τ) (st1_4 t) fullShare ((edgeDat V c).after 4 t)
    ∗ owns (c : Thread nD τ) (st1_5 t) fullShare ((edgeDat V c).after 5 t))

/-- The body at any point: the inputs' memrefs hold their blocks, so the triple applies; the invariant and what the core
    owes pass through unread. -/
theorem edgeSoundAt (c : Dev nD) (t : Fin cfg1.N) :
    edgePre V c t ⊢ wp frame (wpE (defs₀ (F := F)) Variants.none c none) Set.univ (bodyAt1 t) (fun _ => edgePost V c t) := by
  unfold edgePre edgePost bodyAt1
  simp only [edgeBefore0, edgeBefore1, edgeBefore2, edgeBefore3, edgeBefore4]
  rw [show (edgeDat V c).Φ t.succ = (edgeDat V c).Φ t.castSucc from rfl,
    show (edgeDat V c).owesAt () t.succ = (edgeDat V c).owesAt () t.castSucc from rfl,
    edgeAfter0, edgeAfter1, edgeAfter2, edgeAfter3, edgeAfter4, edgeAfter5]
  iintro ⟨HΦ, Ho, ⟨%d0, H0⟩, ⟨%d1, H1⟩, ⟨%d2, H2⟩, ⟨%d3, H3⟩, ⟨%d4, H4⟩, ⟨%d5, H5⟩⟩
  iapply (edgeSound c Set.univ _ _ _ _ _ _ _ _ _ _ _ _ _ (edgeBlk V c 0 t) (edgeBlk V c 1 t) (edgeBlk V c 2 t) (edgeBlk V c 3 t) (edgeBlk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem edgeObligation (c : Dev nD) : BodyObligation (edgeDat (F := F) V c) (defs₀ (F := F)) Variants.none () Set.univ := fun t => by
  rw [bigSep_W1, bigSep_W1]
  exact edgeSoundAt V c t

end

end Cert.KernelIdeal.Frame

end
-- ==== Proof.TwoRegionRun.lean ====
/-
  The program's run, from the launch to the return, at any float instance: two transposes on the host, the node
  projection's region, the edge update's region.

  The buffer contents at each boundary are a fold through @main: the launch memory; after the two transposes; after the
  first region, its output array at what its eight write-backs leave and every other buffer as it was; after the second
  region, its output array at what its 64 write-backs leave and every other buffer as it was. Each region is entered
  from "every unscoped buffer at the boundary's contents, the generator register at some state, nothing owed" and left
  at the same with the next contents. The second region reads the node projections' array through TWO windows: at its
  entry that array's points-to is split into its two half shares, one per window, and at its exit the halves — both still
  at the entry contents, an input window never changing its array — are joined again.

  The run's post names every unscoped buffer's final contents; the argument arrays are read back through the fold to
  the launch memory (no host operation and no region writes one).
-/
import proofs.«100669_j2001454760694_1_alg».proof.Proof.NodeBody
import proofs.«100669_j2001454760694_1_alg».proof.Proof.EdgeBody

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the two transposes (the first region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (nodeDat (V1 m ρ) c).arrAt w cfg0.N
theorem W2_arr (c : Dev nD) (w : Fin cfg0.W) :
    W2 m ρ c (Proc.devRef .tc (Pipeline.arrRef spec0 w)) = (nodeDat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem nodeExit_arr (c : Dev nD) (w : Fin cfg0.W) : (nodeDat (V1 m ρ) c).arrAt w cfg0.N = V2 m ρ c (Pipeline.arrRef spec0 w) :=
  (W2_arr m ρ c w).symm
theorem nodeExit_rest (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit: its output array at what the pipeline leaves, every other buffer as entered (its five
    input windows leave their arrays alone). -/
def W3 (c : Dev nD) : Valuation τ sig (Elt F) :=
  Function.update (W2 m ρ c) (Proc.devRef .tc main_v3) ((edgeDat (V2 m ρ) c).arrAt 5 cfg1.N)
abbrev V3 : (c : Dev nD) → (b : Ref sig .tc) → Buf (Elt F) ((c : Thread nD τ).loc b) := fun c b => W3 m ρ c b
theorem W3_out (c : Dev nD) : W3 m ρ c (Proc.devRef .tc main_v3) = (edgeDat (V2 m ρ) c).arrAt 5 cfg1.N := by
  unfold W3; exact Function.update_self ..
theorem W3_of_ne (c : Dev nD) (b : Ref sig .tc) (hb : b ≠ main_v3) :
    W3 m ρ c (Proc.devRef .tc b) = W2 m ρ c (Proc.devRef .tc b) := by
  unfold W3; exact Function.update_of_ne (StableHlo.devRef_ne_of_ne hb) ..

/-! ## The proof data family and the thread state -/

abbrev adm : (p : Fin 2) → (pcfgs (F := F) p).Adm := fun p => (cfgs p).toPCfg_adm
/-- Both regions' proof data, each at its region's entry contents. -/
def pdats : (p : Fin 2) → (c : Dev nD) → Dat τ (Elt F) Unit ℕ (UR sig nD τ) ℕ (Pipeline.pin (pcfgs (F := F)) adm p) c
  | ⟨0, _⟩ => fun c => nodeDat (V1 m ρ) c
  | ⟨1, _⟩ => fun c => edgeDat (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem transposes_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last contents, the register at some state. -/
abbrev Tₙ (c : Dev nD) : sProp 𝕄 := iprop(StableHlo.held (c : Thread nD τ) (Pipeline.ucRefs τ sig) (W3 m ρ c) ∗ ∃ r, prngReg c r)

/-! ## The second region's arrays out of the unscoped buffers, and back -/

/-- The five distinct arrays behind the second region's six windows: the node projections' array is behind two. -/
theorem edgeArrs_list : Finset.univ.image (Pipeline.arrRef spec1) = ([main_arg1, main_v2, main_v0, main_arg3, main_v3] : List (Ref sig .tc)).toFinset := by decide
theorem edgeArrs_sub : Finset.univ.image (Pipeline.arrRef spec1) ⊆ Finset.univ.filter fun b : Ref sig .tc => ¬ b.isScoped := by decide

/-- The second region's arrays at contents G, window by window: each input's array whole at its share (the node
    projections' array at its left half for the row window and at its right half for the column window), the output's whole. -/
theorem edgeArrays_chain (V : (c : Dev nD) → (b : Ref sig .tc) → Buf (Elt F) ((c : Thread nD τ).loc b)) (c : Dev nD)
    (G : (w : Fin cfg1.W) → Buf (Elt F) ((cfg1.win w).arr.view.loc (c : Thread nD τ))) :
    ((edgeDat V c).arrays G : sProp 𝕄) = iprop(
      (((c : Thread nD τ).loc main_arg1) ↦{fullShare} G 0) ∗ (((c : Thread nD τ).loc main_v2) ↦{fullShare.left} G 1)
      ∗ (((c : Thread nD τ).loc main_v2) ↦{fullShare.right} G 2) ∗ (((c : Thread nD τ).loc main_v0) ↦{fullShare} G 3)
      ∗ (((c : Thread nD τ).loc main_arg3) ↦{fullShare} G 4) ∗ (((c : Thread nD τ).loc main_v3) ↦{fullShare} G 5)) := by
  unfold Dat.arrays
  rw [bigSep_W1]
  rw [(arr_whole1 0).set_eq_univ, (arr_whole1 1).set_eq_univ, (arr_whole1 3).set_eq_univ, (arr_whole1 4).set_eq_univ, (arr_whole1 5).set_eq_univ]
  rfl

/-- The five buffers behind those arrays, each whole at the full share at contents X. -/
theorem edgeBufs_chain (c : Dev nD) (X : (b : Ref sig .tc) → Buf (Elt F) ((c : Thread nD τ).loc b)) :
    (Pipeline.arrBufs (Ix := Unit) (Name := ℕ) (U := UR sig nD τ) (Lvl := ℕ) spec1 c X : sProp 𝕄) = iprop(
      (((c : Thread nD τ).loc main_arg1) ↦{fullShare} X main_arg1) ∗ (((c : Thread nD τ).loc main_v2) ↦{fullShare} X main_v2)
      ∗ (((c : Thread nD τ).loc main_v0) ↦{fullShare} X main_v0) ∗ (((c : Thread nD τ).loc main_arg3) ↦{fullShare} X main_arg3)
      ∗ (((c : Thread nD τ).loc main_v3) ↦{fullShare} X main_v3)) := by
  unfold Pipeline.arrBufs
  exact bigSep_eq_bigSepL_of_eq [main_arg1, main_v2, main_v0, main_arg3, main_v3] edgeArrs_list (by decide) _

/-- The unscoped buffers are those five and the rest. -/
theorem edgeBufs_split (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs spec1 c X ∗ Pipeline.unscopedRest spec1 c X) := by
  unfold unscopedBufs Pipeline.unscopedRest Pipeline.arrBufs
  rw [bigSep_sdiff_split edgeArrs_sub]
  rfl

/-- ENTRY. The unscoped buffers at contents V are the second region's arrays at its proof data's entry contents — the node
    projections' array split into its two halves, one per window on it — and the buffers that are no window's array. -/
theorem edgeArrays_of_bufs (V : (c : Dev nD) → (b : Ref sig .tc) → Buf (Elt F) ((c : Thread nD τ).loc b)) (c : Dev nD) :
    (unscopedBufs (Ix := Unit) (Name := ℕ) (U := UR sig nD τ) (Lvl := ℕ) c (V c) : sProp 𝕄)
      ⊢ iprop((edgeDat V c).arrays ((edgeDat V c).arrAt · 0) ∗ Pipeline.unscopedRest spec1 c (V c)) := by
  rw [edgeBufs_split, edgeBufs_chain, edgeArrays_chain]
  iintro ⟨⟨He, Hp, Hw, Hb, Ho⟩, Hrest⟩
  ihave Hp' := (pointsTo_share (PosShare.mem_left_op_right fullShare)).1 $$ Hp
  icases Hp' with ⟨Hl, Hr⟩
  isplitr [Hrest]
  · isplitl [He]; · iexact He
    isplitl [Hl]; · iexact Hl
    isplitl [Hr]; · iexact Hr
    isplitl [Hw]; · iexact Hw
    isplitl [Hb]; · iexact Hb
    iexact Ho
  iexact Hrest

/-- EXIT. The second region's arrays at its exit contents and the other buffers at V are the unscoped buffers at any V'
    that holds the output array's exit contents and agrees with V elsewhere: the two halves of the node projections'
    array, each still at the entry contents, are joined. -/
theorem bufs_of_edgeArrays (V V' : (c : Dev nD) → (b : Ref sig .tc) → Buf (Elt F) ((c : Thread nD τ).loc b)) (c : Dev nD)
    (hout : V' c main_v3 = (edgeDat V c).arrAt 5 cfg1.N) (hrest : ∀ b, b ≠ main_v3 → V' c b = V c b) :
    iprop((edgeDat V c).arrays ((edgeDat V c).arrAt · cfg1.N) ∗ Pipeline.unscopedRest spec1 c (V c))
      ⊢ (unscopedBufs (Ix := Unit) (Name := ℕ) (U := UR sig nD τ) (Lvl := ℕ) c (V' c) : sProp 𝕄) := by
  have hR : (Pipeline.unscopedRest (Ix := Unit) (Name := ℕ) (U := UR sig nD τ) (Lvl := ℕ) spec1 c (V' c) : sProp 𝕄)
      = Pipeline.unscopedRest spec1 c (V c) := by
    unfold Pipeline.unscopedRest
    exact bigSep_congr fun b hb => by
      rw [hrest b (fun e => (Finset.mem_sdiff.mp hb).2 (e ▸ Finset.mem_image.mpr ⟨5, Finset.mem_univ _, rfl⟩))]
  rw [edgeBufs_split, edgeBufs_chain, edgeArrays_chain, hR,
    (edgeDat V c).arrAt_in 0 rfl, (edgeDat V c).arrAt_in 1 rfl, (edgeDat V c).arrAt_in 2 rfl, (edgeDat V c).arrAt_in 3 rfl,
    (edgeDat V c).arrAt_in 4 rfl, hrest main_arg1 (by decide), hrest main_v2 (by decide), hrest main_v0 (by decide),
    hrest main_arg3 (by decide), hout]
  iintro ⟨⟨He, Hl, Hr, Hw, Hb, Ho⟩, Hrest⟩
  ihave Hp := (pointsTo_share (PosShare.mem_left_op_right fullShare)).2 $$ [Hl Hr]
  · isplitl [Hl]; · iexact Hl
    iexact Hr
  isplitr [Hrest]
  · isplitl [He]; · iexact He
    isplitl [Hp]; · iexact Hp
    isplitl [Hw]; · iexact Hw
    isplitl [Hb]; · iexact Hb
    iexact Ho
  iexact Hrest

/-! ## The regions as segments -/

set_option backward.isDefEq.respectTransparency.types false in
/-- The node projection's region over the thread state: entered from every unscoped buffer at W1, left at W2. -/
def nodeSeg : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (nodeObligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (nodeExit_arr m ρ c) (nodeExit_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The edge update's region over the thread state: entered from every unscoped buffer at W2, left at W3. -/
def edgeSeg : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (edgeObligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := edgeArrays_of_bufs (V2 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := bufs_of_edgeArrays (V2 m ρ) (V3 m ρ) c (W3_out m ρ c) (fun b hb => W3_of_ne m ρ c b hb)
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub transposes_fresh (W0 m ρ)),
    .region (nodeSeg m ρ),
    .region (edgeSeg m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates, nothing faulting, and
    the final memory holds every unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Frame

end
-- ==== Proof.RunReadBack.lean ====
/-
  The fold's contents read back. No host operation and no region writes an argument array — the transposes write
  their own results, each region writes only its output array — so every argument array reaches the end holding its
  launch contents. The two transposes' results are the transposed weight matrices; the first region's output is the
  only buffer it changes, and the second region's output the only one it changes.
-/
import proofs.«100669_j2001454760694_1_alg».proof.Proof.TwoRegionRun

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The transposes write only their own results -/

theorem W1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by
      simp only [hostOps0, List.Forall, StableHlo.unary_writes, Finset.mem_singleton]
      repeat' apply And.intro
      all_goals exact StableHlo.devRef_ne_of_ne (by decide)))).trans rfl
theorem W1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by
      simp only [hostOps0, List.Forall, StableHlo.unary_writes, Finset.mem_singleton]
      repeat' apply And.intro
      all_goals exact StableHlo.devRef_ne_of_ne (by decide)))).trans rfl
theorem W1_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by
      simp only [hostOps0, List.Forall, StableHlo.unary_writes, Finset.mem_singleton]
      repeat' apply And.intro
      all_goals exact StableHlo.devRef_ne_of_ne (by decide)))).trans rfl
theorem W1_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by
      simp only [hostOps0, List.Forall, StableHlo.unary_writes, Finset.mem_singleton]
      repeat' apply And.intro
      all_goals exact StableHlo.devRef_ne_of_ne (by decide)))).trans rfl
theorem W1_arg4 (c : Dev nD) : W1 m ρ c (Proc.devRef .tc main_arg4) = m ((c : Thread nD τ).loc main_arg4) :=
  (StableHlo.after_of_forall_not_mem (b := Proc.devRef .tc main_arg4) _ _ (List.forall_iff_forall_mem.mp (by
      simp only [hostOps0, List.Forall, StableHlo.unary_writes, Finset.mem_singleton]
      repeat' apply And.intro
      all_goals exact StableHlo.devRef_ne_of_ne (by decide)))).trans rfl
theorem W1_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by
      simp only [hostOps0, List.Forall, StableHlo.unary_writes, Finset.mem_singleton]
      repeat' apply And.intro
      all_goals exact StableHlo.devRef_ne_of_ne (by decide)))).trans rfl

/-- The first transpose leaves the edge layer's weight matrix transposed. -/
theorem W1_v0 (c : Dev nD) :
    W1 m ρ c (Proc.devRef .tc main_v0) = transpose S128x128 [1, 0] (m ((c : Thread nD τ).loc main_arg2)) transposes_S128x128_S128x128_1_0 := by
  show StableHlo.after hostOps0 (fun b => m (c, b)) (Proc.devRef .tc main_v0) = _
  after_results
/-- The second transpose leaves the node layer's weight matrix transposed. -/
theorem W1_v1 (c : Dev nD) :
    W1 m ρ c (Proc.devRef .tc main_v1) = transpose S128x128 [1, 0] (m ((c : Thread nD τ).loc main_arg4)) transposes_S128x128_S128x128_1_0 := by
  show StableHlo.after hostOps0 (fun b => m (c, b)) (Proc.devRef .tc main_v1) = _
  after_results

/-! ## The first region changes only its output array -/

theorem W2_arg0 (c : Dev nD) : W2 m ρ c (Proc.devRef .tc main_arg0) = m ((c : Thread nD τ).loc main_arg0) :=
  ((W2_arr m ρ c 0).trans (((nodeDat (V1 m ρ) c).arrAt_in 0 rfl _).trans (nodeDat_A (V1 m ρ) c 0))).trans (W1_arg0 m ρ c)
theorem W2_arg5 (c : Dev nD) : W2 m ρ c (Proc.devRef .tc main_arg5) = m ((c : Thread nD τ).loc main_arg5) :=
  ((W2_arr m ρ c 2).trans (((nodeDat (V1 m ρ) c).arrAt_in 2 rfl _).trans (nodeDat_A (V1 m ρ) c 2))).trans (W1_arg5 m ρ c)
theorem W2_arg1 (c : Dev nD) : W2 m ρ c (Proc.devRef .tc main_arg1) = m ((c : Thread nD τ).loc main_arg1) :=
  (W2_of_ne m ρ c main_arg1 (by decide)).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_v0 (c : Dev nD) :
    W2 m ρ c (Proc.devRef .tc main_v0) = transpose S128x128 [1, 0] (m ((c : Thread nD τ).loc main_arg2)) transposes_S128x128_S128x128_1_0 :=
  (W2_of_ne m ρ c main_v0 (by decide)).trans (W1_v0 m ρ c)
/-- The node projections' array after the first region: what its write-backs leave. -/
theorem W2_v2 (c : Dev nD) : W2 m ρ c (Proc.devRef .tc main_v2) = (nodeDat (V1 m ρ) c).arrAt 3 cfg0.N := W2_arr m ρ c 3

/-! ## The second region changes only its output array: the arguments end as launched -/

theorem W3_arg0 (c : Dev nD) : W3 m ρ c (Proc.devRef .tc main_arg0) = m ((c : Thread nD τ).loc main_arg0) :=
  (W3_of_ne m ρ c main_arg0 (by decide)).trans (W2_arg0 m ρ c)
theorem W3_arg1 (c : Dev nD) : W3 m ρ c (Proc.devRef .tc main_arg1) = m ((c : Thread nD τ).loc main_arg1) :=
  (W3_of_ne m ρ c main_arg1 (by decide)).trans (W2_arg1 m ρ c)
theorem W3_arg2 (c : Dev nD) : W3 m ρ c (Proc.devRef .tc main_arg2) = m ((c : Thread nD τ).loc main_arg2) :=
  (W3_of_ne m ρ c main_arg2 (by decide)).trans (W2_arg2 m ρ c)
theorem W3_arg3 (c : Dev nD) : W3 m ρ c (Proc.devRef .tc main_arg3) = m ((c : Thread nD τ).loc main_arg3) :=
  (W3_of_ne m ρ c main_arg3 (by decide)).trans (W2_arg3 m ρ c)
theorem W3_arg4 (c : Dev nD) : W3 m ρ c (Proc.devRef .tc main_arg4) = m ((c : Thread nD τ).loc main_arg4) :=
  (W3_of_ne m ρ c main_arg4 (by decide)).trans (W2_arg4 m ρ c)
theorem W3_arg5 (c : Dev nD) : W3 m ρ c (Proc.devRef .tc main_arg5) = m ((c : Thread nD τ).loc main_arg5) :=
  (W3_of_ne m ρ c main_arg5 (by decide)).trans (W2_arg5 m ρ c)

/-- THE FRAME: every weakly fair execution terminates, nothing faulting, the argument arrays ending as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W3_arg0 m ρ c), (h c _ (mem_uc main_arg1 (by decide))).trans (W3_arg1 m ρ c),
     (h c _ (mem_uc main_arg2 (by decide))).trans (W3_arg2 m ρ c), (h c _ (mem_uc main_arg3 (by decide))).trans (W3_arg3 m ρ c),
     (h c _ (mem_uc main_arg4 (by decide))).trans (W3_arg4 m ρ c), (h c _ (mem_uc main_arg5 (by decide))).trans (W3_arg5 m ρ c)⟩)
    (run_all m ρ)

end Cert.KernelIdeal.Frame

end
-- ==== Proof.EdgeLayerSpec.lean ====
/-
  The edge-feature layer as two whole-array functions on the extended reals, index by index.

  * The node projection: a dense layer on the last axis, the weights laid out [in, out]. Its entry (b, n, o) is the sum
    over k of x (b, n, k) · w (k, o), plus bias (o).
  * The edge update: the same dense layer on every edge's features, plus the projection of the edge's row node, plus the
    projection of its column node. Its entry (b, i, j, o) is
        ((Σ_k e (b, i, j, k) · w (k, o) + bias (o)) + p (b, i, o)) + p (b, j, o),
    the additions grouped in that order.
-/
import Idealize.ShloMosaic.PureOps.Ideal
import Idealize.ShloMosaic.Lib.ValueIdx

noncomputable section

open scoped BigOperators
open Idealize.ShloMosaic Idealize.ShloMosaic.ValueIdx

namespace Cert.EdgeLayer

/-- Node features and node projections: batch × node × feature. -/
abbrev NodeShape : Shape := ⟨3, ![8, 256, 128]⟩
/-- Edge features: batch × row node × column node × feature. -/
abbrev EdgeShape : Shape := ⟨4, ![8, 256, 256, 128]⟩
abbrev MatShape : Shape := ⟨2, ![128, 128]⟩
abbrev VecShape : Shape := ⟨1, ![128]⟩

/-- The node projection at its coordinates. -/
def nodeProjAt (x : NodeShape.Idx → EReal) (w : MatShape.Idx → EReal) (bias : VecShape.Idx → EReal)
    (b : Fin 8) (n : Fin 256) (o : Fin 128) : EReal :=
  (∑ k : Fin 128, x (ix3 b n k) * w (ix2 k o)) + bias (ix1 o)

/-- The node projection, a whole array. -/
def nodeProj (x : NodeShape.Idx → EReal) (w : MatShape.Idx → EReal) (bias : VecShape.Idx → EReal) : NodeShape.Idx → EReal :=
  fun j => nodeProjAt x w bias (j 0) (j 1) (j 2)

theorem nodeProj_ix (x : NodeShape.Idx → EReal) (w : MatShape.Idx → EReal) (bias : VecShape.Idx → EReal)
    (b : Fin 8) (n : Fin 256) (o : Fin 128) : nodeProj x w bias (ix3 b n o) = nodeProjAt x w bias b n o := rfl

/-- The edge update at its coordinates. -/
def edgeUpdAt (e : EdgeShape.Idx → EReal) (p : NodeShape.Idx → EReal) (w : MatShape.Idx → EReal) (bias : VecShape.Idx → EReal)
    (b : Fin 8) (i j : Fin 256) (o : Fin 128) : EReal :=
  (((∑ k : Fin 128, e (ix4 b i j k) * w (ix2 k o)) + bias (ix1 o)) + p (ix3 b i o)) + p (ix3 b j o)

/-- The edge update, a whole array. -/
def edgeUpd (e : EdgeShape.Idx → EReal) (p : NodeShape.Idx → EReal) (w : MatShape.Idx → EReal) (bias : VecShape.Idx → EReal) :
    EdgeShape.Idx → EReal :=
  fun y => edgeUpdAt e p w bias (y 0) (y 1) (y 2) (y 3)

theorem edgeUpd_ix (e : EdgeShape.Idx → EReal) (p : NodeShape.Idx → EReal) (w : MatShape.Idx → EReal) (bias : VecShape.Idx → EReal)
    (b : Fin 8) (i j : Fin 256) (o : Fin 128) : edgeUpd e p w bias (ix4 b i j o) = edgeUpdAt e p w bias b i j o := rfl

end Cert.EdgeLayer

end
-- ==== Proof.LibPlainMatmul.lean ====
/-
  Two operations of a dense layer read at one entry, at the ideal values (every float an extended real, every operation exact).

  * A matrix product with the PLAIN dimension numbers — an [M, K] matrix times a [K, N] matrix, the left operand contracted on
    its axis 1 and the right on its axis 0, no batch axis — accumulated into the zero matrix: its entry (p, q) is the sum over
    the contraction coordinate k of lhs (p, k) · rhs (k, q). The contraction index of such a product has one axis, and the sum
    over it is re-indexed through that axis's coordinate.
  * A one-row matrix [1, C] spread down R rows: its entry (p, k) is the row's entry (0, k).
-/
import Idealize.ShloMosaic.PureOps.Ideal.Laws
import Idealize.ShloMosaic.Lib.ValueIdx
import Idealize.ShloMosaic.Lib.Pipeline.Value

noncomputable section

open scoped BigOperators
open Idealize.ShloMosaic Idealize.ShloMosaic.ValueIdx

namespace Cert.Lib.PlainMatmul

variable {M K N : Nat}

/-- The plain product's dimension numbers as a record, over any evidence that they are well formed. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's row coordinate is the result's row coordinate. -/
theorem lhs_row (j : (⟨2, ![M, N]⟩ : Shape).Idx) (q : (dims wf).contr.Idx) : ((dims wf).lhsIdx j q 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The left operand's column coordinate is the contraction coordinate. -/
theorem lhs_col (j : (⟨2, ![M, N]⟩ : Shape).Idx) (q : (dims wf).contr.Idx) :
    ((dims wf).lhsIdx j q 1).val = (q ⟨0, Nat.one_pos⟩).val :=
  (dims wf).lhsIdx_val_of_single rfl j q

/-- The right operand's row coordinate is the contraction coordinate. -/
theorem rhs_row (j : (⟨2, ![M, N]⟩ : Shape).Idx) (q : (dims wf).contr.Idx) :
    ((dims wf).rhsIdx j q 0).val = (q ⟨0, Nat.one_pos⟩).val :=
  (dims wf).rhsIdx_val_of_single rfl j q

/-- The right operand's column coordinate is the result's column coordinate. -/
theorem rhs_col (j : (⟨2, ![M, N]⟩ : Shape).Idx) (q : (dims wf).contr.Idx) : ((dims wf).rhsIdx j q 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The plain product into the zero matrix at entry (p, q): the sum over k of lhs (p, k) · rhs (k, q). -/
theorem apply_dims (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul (dims wf) prec lhs rhs (constant (F := Ideal) ⟨2, ![M, N]⟩ .f32 0x00000000#32) (ix2 p q)
      = ∑ k : Fin K, lhs (ix2 p k) * rhs (ix2 k q) := by
  rw [Ideal.matmul_constant_zero_apply, ← Equiv.sum_comp (contrEquiv1 (dims wf) K rfl rfl).symm]
  refine Finset.sum_congr rfl fun k _ => ?_
  have hk := contrEquiv1_symm_val (dims wf) K rfl rfl k
  have el : (dims wf).lhsIdx (ix2 p q) ((contrEquiv1 (dims wf) K rfl rfl).symm k) = ix2 p k := funext fun a => Fin.ext (by
    match a with
    | ⟨0, _⟩ => exact lhs_row wf _ _
    | ⟨1, _⟩ => exact (lhs_col wf _ _).trans hk)
  have er : (dims wf).rhsIdx (ix2 p q) ((contrEquiv1 (dims wf) K rfl rfl).symm k) = ix2 k q := funext fun a => Fin.ext (by
    match a with
    | ⟨0, _⟩ => exact (rhs_row wf _ _).trans hk
    | ⟨1, _⟩ => exact rhs_col wf _ _)
  rw [el, er]

/-- The same for any record whose dimension numbers are the plain product's. -/
theorem apply (d : DotDims (⟨2, ![M, K]⟩ : Shape) ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) {φ₁ φ₂ : FTy} (lhs : FVec Ideal ⟨2, ![M, K]⟩ φ₁)
    (rhs : FVec Ideal ⟨2, ![K, N]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 k q) := by
  obtain ⟨lc, rc, ln, rn, lb, rb, wf⟩ := d
  dsimp only at hlc hrc hln hrn hlb hrb
  subst hlc hrc hln hrn hlb hrb
  exact apply_dims wf prec lhs rhs p q

/-- A one-row matrix spread down the rows, at entry (p, k): the row's entry (0, k). -/
theorem rowSpread_apply {α : Type} {R C : Nat} (x : (⟨2, ![1, C]⟩ : Shape).Idx → α)
    (h : (⟨2, ![1, C]⟩ : Shape).Broadcasts ⟨2, ![R, C]⟩) (p : Fin R) (k : Fin C) :
    broadcastTo ⟨2, ![R, C]⟩ x h (ix2 p k) = x (ix2 (0 : Fin 1) k) := by
  refine broadcastTo_apply x h (ix2 p k) (ix2 (0 : Fin 1) k) fun a => ?_
  match a with
  | ⟨0, _⟩ => rfl
  | ⟨1, _⟩ =>
    show k.val = if C = 1 then 0 else k.val
    split
    · have := k.isLt; omega
    · rfl

end Cert.Lib.PlainMatmul

end
-- ==== Proof.NodeValue.lean ====
/-
  The node projection's array after its region, at the ideal values: the eight blocks the region writes back tile the
  [8, 256, 128] array, and block b is the dense layer of block b of x.
-/
import proofs.«100669_j2001454760694_1_alg».proof.Proof.NodeBody
import proofs.«100669_j2001454760694_1_alg».proof.Proof.EdgeLayerSpec
import proofs.«100669_j2001454760694_1_alg».proof.Proof.LibPlainMatmul
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Frame

open Cert.KernelIdeal Cert.KernelIdeal.Gen Idealize.ShloMosaic.Pipeline

/-! ## The body's payload at an entry -/

/-- The zero offsets of a whole-buffer access of rank 3, 2, 1, as the constant function. -/
theorem zeroOff3 : (![0, 0, 0] : Fin 3 → Nat) = fun _ => 0 := funext fun a => by fin_cases a <;> rfl
theorem zeroOff2 : (![0, 0] : Fin 2 → Nat) = fun _ => 0 := funext fun a => by fin_cases a <;> rfl
theorem zeroOff1 : (![0] : Fin 1 → Nat) = fun _ => 0 := funext fun a => by fin_cases a <;> rfl

/-- The body's payload at entry (u, n, o) of its [1, 256, 128] block: row n of the loaded block times column o of the
    loaded matrix, plus the loaded bias at o. The narrowing to bf16 is the identity at the ideal values. -/
theorem nodePay_apply (x0 : Vec Ideal S1x256x128 .f32) (x1 : Vec Ideal S128x128 .f32) (x2 : Vec Ideal S128 .f32)
    (u : Fin 1) (n : Fin 256) (o : Fin 128) :
    k0_pay1 x0 x1 x2 (ix3 u n o) = (∑ k : Fin 128, x0 (ix3 (0 : Fin 1) n k) * x1 (ix2 k o)) + x2 (ix1 o) := by
  unfold k0_pay1
  refine (shapeCast_ab_1ab_apply _ shapeCasts_S256x128_S1x256x128 u n o).trans ?_
  refine (addf_apply _ _ _).trans ?_
  refine congrArg₂ (· + ·) ?_ ?_
  · refine (Cert.Lib.PlainMatmul.apply dot_S256x128_S128x128_S256x128_1_0_0_1_n_n rfl rfl rfl rfl rfl rfl none _ _ n o).trans ?_
    refine Finset.sum_congr rfl fun k _ => ?_
    refine congrArg₂ (· * ·) ?_ ?_
    · exact shapeCast_1ab_ab_apply x0 shapeCasts_S1x256x128_S256x128 n k
    · exact congrFun (shapeCast_self x1 shapeCasts_S128x128_S128x128) (ix2 k o)
  · refine (Cert.Lib.PlainMatmul.rowSpread_apply _ broadcasts_S1x128_S256x128 n o).trans ?_
    exact shapeCast_a_1a_apply x2 shapeCasts_S128_S1x128 0 o

/-- The payload at an entry is the projection at an array index i, once the three loaded blocks read the arrays where
    i says: the block's row n is row (i 0, i 1) of x, the matrix and the bias are read at column i 2. -/
theorem nodePay_eq_proj (X : Cert.EdgeLayer.NodeShape.Idx → EReal) (W : Cert.EdgeLayer.MatShape.Idx → EReal)
    (B : Cert.EdgeLayer.VecShape.Idx → EReal)
    (x0 : Vec Ideal S1x256x128 .f32) (x1 : Vec Ideal S128x128 .f32) (x2 : Vec Ideal S128 .f32)
    (i : Cert.EdgeLayer.NodeShape.Idx) (u : Fin 1) (n : Fin 256) (o : Fin 128)
    (h0 : ∀ k : Fin 128, x0 (ix3 (0 : Fin 1) n k) = X (ix3 (i 0) (i 1) k))
    (h1 : ∀ k : Fin 128, x1 (ix2 k o) = W (ix2 k (i 2)))
    (h2 : x2 (ix1 o) = B (ix1 (i 2))) :
    k0_pay1 x0 x1 x2 (ix3 u n o) = Cert.EdgeLayer.nodeProj X W B i := by
  rw [nodePay_apply]
  unfold Cert.EdgeLayer.nodeProj Cert.EdgeLayer.nodeProjAt
  rw [h2]
  exact congrArg (· + B (ix1 (i 2))) (Finset.sum_congr rfl fun k _ => by rw [h0, h1])

/-! ## The windows' block indices, decided over the grid -/

/-- At point t the x window and the output window are both at block (t, 0, 0); the matrix and the bias windows stay at
    their one block. -/
theorem nodeIdxFacts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0 :=
  (by decide +kernel : ∀ t : Fin grid0.N, _)

/-- Every batch entry is some point's output block. -/
theorem nodeIdxOnto : ∀ q : Fin 8, ∃ t : Fin cfg0.N,
    win0_3.index t (0 : Fin 3) = q.val ∧ win0_3.index t (1 : Fin 3) = 0 ∧ win0_3.index t (2 : Fin 3) = 0 :=
  (by decide +kernel : ∀ q : Fin 8, ∃ t : Fin grid0.N,
    win0_3.index t (0 : Fin 3) = q.val ∧ win0_3.index t (1 : Fin 3) = 0 ∧ win0_3.index t (2 : Fin 3) = 0)

variable (V : (c : Dev nD) → (b : Ref sig .tc) → Buf (Elt Ideal) ((c : Thread nD τ).loc b))

/-! ## What a point writes back -/

/-- The payload of point t's three blocks at a block index j is the projection of the arrays at the array index the
    output's block puts j at: a block's coordinate is its block index times the block size plus the coordinate inside. -/
theorem nodeFlushedAt (c : Dev nD) (t : Fin cfg0.N) (j : S1x256x128.Idx) :
    k0_pay1 (nodeBlk V c 0 t) (nodeBlk V c 1 t) (nodeBlk V c 2 t) j
      = Cert.EdgeLayer.nodeProj (V c main_arg0) (V c main_v1) (V c main_arg5) (((cfg0.win 3).blk t).view.emb j) := by
  obtain ⟨u, n, o, rfl⟩ : ∃ (u : Fin 1) (n : Fin 256) (o : Fin 128), j = ix3 u n o := ⟨j 0, j 1, j 2, eq_ix3 j⟩
  obtain ⟨e00, e01, e02, e10, e11, e20, e30, e31, e32⟩ := nodeIdxFacts t
  have hu : u.val = 0 := by omega
  refine nodePay_eq_proj _ _ _ _ _ _ _ u n o (fun k => ?_) (fun k => ?_) ?_
  · show V c main_arg0 (((cfg0.win 0).blk t).view.emb (ix3 (0 : Fin 1) n k)) = V c main_arg0 _
    refine congrArg _ (funext fun a => Fin.ext ?_)
    match a with
    | ⟨0, _⟩ => show win0_0.index t (0 : Fin 3) * 1 + 1 * 0 = win0_3.index t (0 : Fin 3) * 1 + 1 * u.val; omega
    | ⟨1, _⟩ => show win0_0.index t (1 : Fin 3) * 256 + 1 * n.val = win0_3.index t (1 : Fin 3) * 256 + 1 * n.val; omega
    | ⟨2, _⟩ => show win0_0.index t (2 : Fin 3) * 128 + 1 * k.val = k.val; omega
  · show V c main_v1 (((cfg0.win 1).blk t).view.emb (ix2 k o)) = V c main_v1 _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * o.val = win0_3.index t (2 : Fin 3) * 128 + 1 * o.val; omega
  · show V c main_arg5 (((cfg0.win 2).blk t).view.emb (ix1 o)) = V c main_arg5 _
    refine congrArg _ (funext fun a => Fin.ext ?_)
    match a with
    | ⟨0, _⟩ => show win0_2.index t (0 : Fin 1) * 128 + 1 * o.val = win0_3.index t (2 : Fin 3) * 128 + 1 * o.val; omega

/-- What point t writes back is block t of the projection of the arrays the region was entered from. -/
theorem nodeFlushed (c : Dev nD) (t : Fin cfg0.N) :
    (nodeDat (F := Ideal) V c).flushed 3 t
      = ((cfg0.win 3).blk t).view.read (Elt Ideal) (Cert.EdgeLayer.nodeProj (V c main_arg0) (V c main_v1) (V c main_arg5)) := by
  show (cfg0.win 3).cut (cfg0.grid.coords t) ((nodeDat V c).after 3 t) = _
  rw [nodeAfter3]
  unfold nodeOut
  rw [View.canon_unit_zero zeroOff3]
  simp only [View.ld_unit_zero (S := S1x256x128) zeroOff3, View.ld_unit_zero (S := S128x128) zeroOff2, View.ld_unit_zero (S := S128) zeroOff1]
  funext j
  exact nodeFlushedAt V c t j

/-! ## The blocks tile the array -/

/-- An index of the output array is in point t's block iff each coordinate is in the block's range on its axis. -/
theorem nodeMemBlk (t : Fin cfg0.N) (i : S8x256x128.Idx) :
    i ∈ ((cfg0.win 3).blk t).view.set ↔ ∀ a : Fin 3, win0_3.index t a * S1x256x128.size a ≤ (i a).val
      ∧ (i a).val < win0_3.index t a * S1x256x128.size a + S1x256x128.size a := by
  show i ∈ ((View.whole main_v2).slice (win0_3.rect t)).set ↔ _
  rw [View.set_slice_whole, Rect.mem_set_unit]
  exact Iff.rfl

/-- Every index of the output array is in the block of the point its batch coordinate names, and every point writes
    its block back. -/
theorem nodeBlocksCover (i : S8x256x128.Idx) :
    ∃ t : Fin cfg0.N, (cfg0.win 3).flush t = true ∧ i ∈ ((cfg0.win 3).blk t).view.set := by
  have hi0 : (i 0).val < 8 := (i 0).isLt
  have hi1 : (i 1).val < 256 := (i 1).isLt
  have hi2 : (i 2).val < 128 := (i 2).isLt
  obtain ⟨t, q0, q1, q2⟩ := nodeIdxOnto ⟨(i 0).val, hi0⟩
  have q0' : win0_3.index t (0 : Fin 3) = (i 0).val := q0
  refine ⟨t, flush0_3 t, ?_⟩
  rw [nodeMemBlk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 128 ≤ (i 2).val ∧ (i 2).val < win0_3.index t (2 : Fin 3) * 128 + 128; omega

/-- After the region the output array holds the node projection of the arrays the region was entered from: x in
    `main_arg0`, the transposed weights in `main_v1`, the bias in `main_arg5`. -/
theorem nodeFinal (c : Dev nD) :
    (nodeDat (F := Ideal) V c).arrAt 3 cfg0.N
      = Cert.EdgeLayer.nodeProj (V c main_arg0) (V c main_v1) (V c main_arg5) :=
  (nodeDat V c).arrAt_eq_of_cover 3 (Cert.EdgeLayer.nodeProj (V c main_arg0) (V c main_v1) (V c main_arg5))
    (fun t _ => nodeFlushed V c t) nodeBlocksCover

end Cert.KernelIdeal.Frame

end
-- ==== Proof.EdgeValue.lean ====
/-
  The edge update's array after its region, at the ideal values: the 64 blocks the region writes back tile the
  [8, 256, 256, 128] array, and block (b, i) is the edge update of the edge block (b, i), the row projections' block
  (b, i) and the column projections' block b.
-/
import proofs.«100669_j2001454760694_1_alg».proof.Proof.EdgeBody
import proofs.«100669_j2001454760694_1_alg».proof.Proof.EdgeLayerSpec
import proofs.«100669_j2001454760694_1_alg».proof.Proof.LibPlainMatmul
import Idealize.ShloMosaic.Lib.Pipeline.Value
import Idealize.ShloMosaic.Lib.ValueLayout
import Idealize.ShloMosaic.PureOps.Ideal.Laws

set_option maxRecDepth 16384

noncomputable section

open scoped BigOperators
open Idealize.ShloMosaic Idealize.ShloMosaic.TcCoe Idealize.ShloMosaic.ValueIdx Idealize.SL.Sem

namespace Cert.KernelIdeal.Frame

open Cert.KernelIdeal Cert.KernelIdeal.Gen Idealize.ShloMosaic.Pipeline

namespace EdgeValue

/-! ## The reshapes and broadcasts of the body, read at one entry -/

section Layout
variable {α : Type}

/-- A [8192, 128] matrix viewed as [32, 256, 128]: entry (i', j, o) is the matrix's entry (256 i' + j, o). -/
theorem rowsSplit_apply (x : (⟨2, ![8192, 128]⟩ : Shape).Idx → α)
    (h : (⟨2, ![8192, 128]⟩ : Shape).ShapeCasts ⟨3, ![32, 256, 128]⟩) (i' : Fin 32) (j : Fin 256) (o : Fin 128) :
    shapeCast ⟨3, ![32, 256, 128]⟩ x h (ix3 i' j o)
      = x (ix2 (⟨256 * i'.val + j.val, by have := i'.isLt; have := j.isLt; omega⟩ : Fin 8192) o) :=
  shapeCast_apply x h _ _ (by
    rw [Shape.rowMajor_val_two, Shape.rowMajor_val_three]
    show (256 * i'.val + j.val) * 128 + o.val = (i'.val * 256 + j.val) * 128 + o.val
    omega)

/-- A [32, 256, 128] array viewed as [8192, 128]: entry (256 i' + j, k) is the array's entry (i', j, k). -/
theorem rowsMerge_apply (x : (⟨3, ![32, 256, 128]⟩ : Shape).Idx → α)
    (h : (⟨3, ![32, 256, 128]⟩ : Shape).ShapeCasts ⟨2, ![8192, 128]⟩) (i' : Fin 32) (j : Fin 256) (k : Fin 128) :
    shapeCast ⟨2, ![8192, 128]⟩ x h
        (ix2 (⟨256 * i'.val + j.val, by have := i'.isLt; have := j.isLt; omega⟩ : Fin 8192) k)
      = x (ix3 i' j k) :=
  shapeCast_apply x h _ _ (by
    rw [Shape.rowMajor_val_two, Shape.rowMajor_val_three]
    show (i'.val * 256 + j.val) * 128 + k.val = (256 * i'.val + j.val) * 128 + k.val
    omega)

/-- A [128] vector viewed as [1, 1, 128]: entry (0, 0, o) is the vector's entry o. -/
theorem vecLift_apply (x : (⟨1, ![128]⟩ : Shape).Idx → α)
    (h : (⟨1, ![128]⟩ : Shape).ShapeCasts ⟨3, ![1, 1, 128]⟩) (u v : Fin 1) (o : Fin 128) :
    shapeCast ⟨3, ![1, 1, 128]⟩ x h (ix3 u v o) = x (ix1 o) :=
  shapeCast_apply x h _ _ (by
    have hu : u.val = 0 := by omega
    have hv : v.val = 0 := by omega
    rw [Shape.rowMajor_val_one, Shape.rowMajor_val_three]
    show o.val = (u.val * 1 + v.val) * 128 + o.val
    rw [hu, hv]; omega)

/-- A [32, 128] matrix viewed as [32, 1, 128]: entry (i', 0, o) is the matrix's entry (i', o). -/
theorem midLift_apply (x : (⟨2, ![32, 128]⟩ : Shape).Idx → α)
    (h : (⟨2, ![32, 128]⟩ : Shape).ShapeCasts ⟨3, ![32, 1, 128]⟩) (i' : Fin 32) (v : Fin 1) (o : Fin 128) :
    shapeCast ⟨3, ![32, 1, 128]⟩ x h (ix3 i' v o) = x (ix2 i' o) :=
  shapeCast_apply x h _ _ (by
    have hv : v.val = 0 := by omega
    rw [Shape.rowMajor_val_two, Shape.rowMajor_val_three]
    show i'.val * 128 + o.val = (i'.val * 1 + v.val) * 128 + o.val
    rw [hv]; omega)

/-- A [1, 1, 128] array spread over [32, 256, 128]: entry (i', j, o) is the array's entry (0, 0, o). -/
theorem spreadVec_apply (x : (⟨3, ![1, 1, 128]⟩ : Shape).Idx → α)
    (h : (⟨3, ![1, 1, 128]⟩ : Shape).Broadcasts ⟨3, ![32, 256, 128]⟩) (i' : Fin 32) (j : Fin 256) (o : Fin 128) :
    broadcastTo ⟨3, ![32, 256, 128]⟩ x h (ix3 i' j o) = x (ix3 (0 : Fin 1) (0 : Fin 1) o) := by
  refine broadcastTo_apply x h (ix3 i' j o) (ix3 (0 : Fin 1) (0 : Fin 1) o) fun a => ?_
  match a with
  | ⟨0, _⟩ => rfl
  | ⟨1, _⟩ => rfl
  | ⟨2, _⟩ => rfl

/-- A [32, 1, 128] array spread over [32, 256, 128]: entry (i', j, o) is the array's entry (i', 0, o). -/
theorem spreadRow_apply (x : (⟨3, ![32, 1, 128]⟩ : Shape).Idx → α)
    (h : (⟨3, ![32, 1, 128]⟩ : Shape).Broadcasts ⟨3, ![32, 256, 128]⟩) (i' : Fin 32) (j : Fin 256) (o : Fin 128) :
    broadcastTo ⟨3, ![32, 256, 128]⟩ x h (ix3 i' j o) = x (ix3 i' (0 : Fin 1) o) := by
  refine broadcastTo_apply x h (ix3 i' j o) (ix3 i' (0 : Fin 1) o) fun a => ?_
  match a with
  | ⟨0, _⟩ => rfl
  | ⟨1, _⟩ => rfl
  | ⟨2, _⟩ => rfl

/-- A [1, 256, 128] array spread over [32, 256, 128]: entry (i', j, o) is the array's entry (0, j, o). -/
theorem spreadCol_apply (x : (⟨3, ![1, 256, 128]⟩ : Shape).Idx → α)
    (h : (⟨3, ![1, 256, 128]⟩ : Shape).Broadcasts ⟨3, ![32, 256, 128]⟩) (i' : Fin 32) (j : Fin 256) (o : Fin 128) :
    broadcastTo ⟨3, ![32, 256, 128]⟩ x h (ix3 i' j o) = x (ix3 (0 : Fin 1) j o) := by
  refine broadcastTo_apply x h (ix3 i' j o) (ix3 (0 : Fin 1) j o) fun a => ?_
  match a with
  | ⟨0, _⟩ => rfl
  | ⟨1, _⟩ => rfl
  | ⟨2, _⟩ => rfl

end Layout

/-! ## The body's stored value at one entry -/

/-- The stored block at entry (0, i', j, o): the edge (i', j)'s features times the matrix, plus the bias, plus row i''s
    projection, plus column j's projection, the additions grouped in that order. -/
theorem edgePay_apply (x0 : Vec Ideal S1x32x256x128 .f32) (w : Vec Ideal S128x128 .f32) (bias : Vec Ideal S128 .f32)
    (pr : Vec Ideal S1x32x128 .f32) (pc : Vec Ideal S1x256x128 .f32) (u : Fin 1) (i' : Fin 32) (j : Fin 256) (o : Fin 128) :
    k1_pay1 (F := Ideal) x0 w bias pr pc (ix4 u i' j o)
      = (((∑ k : Fin 128, x0 (ix4 (0 : Fin 1) i' j k) * w (ix2 k o)) + bias (ix1 o)) + pr (ix3 (0 : Fin 1) i' o))
          + pc (ix3 (0 : Fin 1) j o) := by
  unfold k1_pay1
  refine (shapeCast_abc_1abc_apply _ _ u i' j o).trans ?_
  refine (addf_apply _ _ _).trans ?_
  refine congrArg₂ (· + ·) ?_ ?_
  · refine (addf_apply _ _ _).trans ?_
    refine congrArg₂ (· + ·) ?_ ?_
    · refine (addf_apply _ _ _).trans ?_
      refine congrArg₂ (· + ·) ?_ ?_
      · refine (rowsSplit_apply _ _ i' j o).trans ?_
        refine (Cert.Lib.PlainMatmul.apply _ rfl rfl rfl rfl rfl rfl none _ _ _ o).trans ?_
        refine Finset.sum_congr rfl fun k _ => ?_
        refine congrArg₂ (· * ·) ?_ ?_
        · refine (truncf_apply (ψ := .bf16) _ bitsLt_bf16_f32 _).trans ?_
          refine (rowsMerge_apply _ _ i' j k).trans ?_
          exact shapeCast_1abc_abc_apply _ _ i' j k
        · refine (truncf_apply (ψ := .bf16) _ bitsLt_bf16_f32 _).trans ?_
          exact congrFun (shapeCast_self _ _) _
      · refine (spreadVec_apply _ _ i' j o).trans ?_
        exact vecLift_apply _ _ 0 0 o
    · refine (spreadRow_apply _ _ i' j o).trans ?_
      refine (midLift_apply _ _ i' 0 o).trans ?_
      exact shapeCast_1ab_ab_apply _ _ i' o
  · refine (spreadCol_apply _ _ i' j o).trans ?_
    refine (shapeCast_ab_1ab_apply _ _ 0 j o).trans ?_
    exact shapeCast_1ab_ab_apply _ _ j o

/-! ## The block a point stores, as a block of the edge update -/

/-- Two arrays of rank four agree when they agree at every entry written by its four coordinates. -/
theorem funext_ix4 {α : Type} {n0 n1 n2 n3 : Nat} {f g : (⟨4, ![n0, n1, n2, n3]⟩ : Shape).Idx → α}
    (h : ∀ (a : Fin n0) (b : Fin n1) (c : Fin n2) (d : Fin n3), f (ix4 a b c d) = g (ix4 a b c d)) : f = g :=
  funext fun y => by rw [eq_ix4 y]; exact h _ _ _ _

/-- The stored block at entry (0, i', j, o) is the edge update at (b, r, j, o), when the five loaded blocks hold, at the
    entries that value reads, the arrays' entries of batch b, row r and column j. -/
theorem edgeBlock_apply (E : Cert.EdgeLayer.EdgeShape.Idx → EReal) (P : Cert.EdgeLayer.NodeShape.Idx → EReal)
    (W : Cert.EdgeLayer.MatShape.Idx → EReal) (B : Cert.EdgeLayer.VecShape.Idx → EReal)
    (x0 : Vec Ideal S1x32x256x128 .f32) (w : Vec Ideal S128x128 .f32) (bias : Vec Ideal S128 .f32)
    (pr : Vec Ideal S1x32x128 .f32) (pc : Vec Ideal S1x256x128 .f32)
    (b : Fin 8) (i' : Fin 32) (r : Fin 256) (j : Fin 256) (o : Fin 128) (u : Fin 1)
    (h0 : ∀ k : Fin 128, x0 (ix4 (0 : Fin 1) i' j k) = E (ix4 b r j k))
    (h3 : ∀ k : Fin 128, w (ix2 k o) = W (ix2 k o))
    (h4 : bias (ix1 o) = B (ix1 o))
    (h1 : pr (ix3 (0 : Fin 1) i' o) = P (ix3 b r o))
    (h2 : pc (ix3 (0 : Fin 1) j o) = P (ix3 b j o)) :
    k1_pay1 (F := Ideal) x0 w bias pr pc (ix4 u i' j o) = Cert.EdgeLayer.edgeUpd E P W B (ix4 b r j o) := by
  refine (edgePay_apply x0 w bias pr pc u i' j o).trans ?_
  refine Eq.trans ?_ (Cert.EdgeLayer.edgeUpd_ix E P W B b r j o).symm
  unfold Cert.EdgeLayer.edgeUpdAt
  refine congrArg₂ (· + ·) (congrArg₂ (· + ·) (congrArg₂ (· + ·) ?_ h4) h1) h2
  exact Finset.sum_congr rfl fun k _ => congrArg₂ (· * ·) (h0 k) (h3 k)

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The windows' index maps over the 64 grid points: the edge window, the row-projection window and the output window
    sit at block (b, i) of their arrays, the column-projection window at block b, the weights and the bias at block 0,
    where (b, i) are the point's two coordinates. -/
theorem edgeIdx : ∀ t : Fin cfg1.N,
    win1_0.index t (0 : Fin 4) = (grid1.coords t 0).val ∧ win1_0.index t (1 : Fin 4) = (grid1.coords t 1).val
    ∧ win1_0.index t (2 : Fin 4) = 0 ∧ win1_0.index t (3 : Fin 4) = 0
    ∧ win1_1.index t (0 : Fin 3) = (grid1.coords t 0).val ∧ win1_1.index t (1 : Fin 3) = (grid1.coords t 1).val
    ∧ win1_1.index t (2 : Fin 3) = 0
    ∧ win1_2.index t (0 : Fin 3) = (grid1.coords t 0).val ∧ win1_2.index t (1 : Fin 3) = 0
    ∧ win1_2.index t (2 : Fin 3) = 0
    ∧ win1_3.index t (0 : Fin 2) = 0 ∧ win1_3.index t (1 : Fin 2) = 0
    ∧ win1_4.index t (0 : Fin 1) = 0
    ∧ win1_5.index t (0 : Fin 4) = (grid1.coords t 0).val ∧ win1_5.index t (1 : Fin 4) = (grid1.coords t 1).val
    ∧ win1_5.index t (2 : Fin 4) = 0 ∧ win1_5.index t (3 : Fin 4) = 0
    ∧ (grid1.coords t 0).val < 8 ∧ (grid1.coords t 1).val < 8 :=
  (by decide +kernel : ∀ t : Fin grid1.N, _)

variable (V : (c : Dev nD) → (b : Ref sig .tc) → Buf (Elt Ideal) ((c : Thread nD τ).loc b))

/-- What point t writes back is block t of the edge update of the four arrays. -/
theorem edgeFlushed (c : Dev nD) (t : Fin cfg1.N) :
    (edgeDat (F := Ideal) V c).flushed 5 t
      = ((cfg1.win 5).blk t).view.read (Elt Ideal)
          (Cert.EdgeLayer.edgeUpd (V c main_arg1) (V c main_v2) (V c main_v0) (V c main_arg3)) := by
  show (cfg1.win 5).cut (cfg1.grid.coords t) ((edgeDat V c).after 5 t) = _
  rw [edgeAfter5]
  unfold edgeOut
  rw [View.canon_unit_zero zeros4]
  simp only [View.ld_unit_zero (S := S1x32x256x128) zeros4, View.ld_unit_zero (S := S1x32x128) zeros3,
    View.ld_unit_zero (S := S1x256x128) zeros3, View.ld_unit_zero (S := S128x128) zeros2,
    View.ld_unit_zero (S := S128) zeros1]
  obtain ⟨e00, e01, e02, e03, e10, e11, e12, e20, e21, e22, e30, e31, e40, e50, e51, e52, e53, hb, hi⟩ := edgeIdx t
  refine funext_ix4 (n0 := 1) (n1 := 32) (n2 := 256) (n3 := 128) fun u i' j o => ?_
  have hu : u.val = 0 := by omega
  have hi' : i'.val < 32 := i'.isLt
  refine (edgeBlock_apply (V c main_arg1) (V c main_v2) (V c main_v0) (V c main_arg3)
    (edgeBlk V c 0 t) (edgeBlk V c 3 t) (edgeBlk V c 4 t) (edgeBlk V c 1 t) (edgeBlk V c 2 t)
    ⟨(grid1.coords t 0).val, hb⟩ i' ⟨32 * (grid1.coords t 1).val + i'.val, by omega⟩ j o u ?_ ?_ ?_ ?_ ?_).trans ?_
  · intro k
    show V c main_arg1 (((cfg1.win 0).blk t).view.emb (ix4 (0 : Fin 1) i' j k)) = _
    refine congrArg (V c main_arg1) (funext fun a => Fin.ext ?_)
    match a with
    | ⟨0, _⟩ => show win1_0.index t (0 : Fin 4) * 1 + 1 * 0 = (grid1.coords t 0).val; omega
    | ⟨1, _⟩ => show win1_0.index t (1 : Fin 4) * 32 + 1 * i'.val = 32 * (grid1.coords t 1).val + i'.val; omega
    | ⟨2, _⟩ => show win1_0.index t (2 : Fin 4) * 256 + 1 * j.val = j.val; omega
    | ⟨3, _⟩ => show win1_0.index t (3 : Fin 4) * 128 + 1 * k.val = k.val; omega
  · intro k
    show V c main_v0 (((cfg1.win 3).blk t).view.emb (ix2 k o)) = _
    refine congrArg (V c main_v0) (funext fun a => Fin.ext ?_)
    match a with
    | ⟨0, _⟩ => show win1_3.index t (0 : Fin 2) * 128 + 1 * k.val = k.val; omega
    | ⟨1, _⟩ => show win1_3.index t (1 : Fin 2) * 128 + 1 * o.val = o.val; omega
  · show V c main_arg3 (((cfg1.win 4).blk t).view.emb (ix1 o)) = _
    refine congrArg (V c main_arg3) (funext fun a => Fin.ext ?_)
    match a with
    | ⟨0, _⟩ => show win1_4.index t (0 : Fin 1) * 128 + 1 * o.val = o.val; omega
  · show V c main_v2 (((cfg1.win 1).blk t).view.emb (ix3 (0 : Fin 1) i' o)) = _
    refine congrArg (V c main_v2) (funext fun a => Fin.ext ?_)
    match a with
    | ⟨0, _⟩ => show win1_1.index t (0 : Fin 3) * 1 + 1 * 0 = (grid1.coords t 0).val; omega
    | ⟨1, _⟩ => show win1_1.index t (1 : Fin 3) * 32 + 1 * i'.val = 32 * (grid1.coords t 1).val + i'.val; omega
    | ⟨2, _⟩ => show win1_1.index t (2 : Fin 3) * 128 + 1 * o.val = o.val; omega
  · show V c main_v2 (((cfg1.win 2).blk t).view.emb (ix3 (0 : Fin 1) j o)) = _
    refine congrArg (V c main_v2) (funext fun a => Fin.ext ?_)
    match a with
    | ⟨0, _⟩ => show win1_2.index t (0 : Fin 3) * 1 + 1 * 0 = (grid1.coords t 0).val; omega
    | ⟨1, _⟩ => show win1_2.index t (1 : Fin 3) * 256 + 1 * j.val = j.val; omega
    | ⟨2, _⟩ => show win1_2.index t (2 : Fin 3) * 128 + 1 * o.val = o.val; omega
  · show _ = Cert.EdgeLayer.edgeUpd (V c main_arg1) (V c main_v2) (V c main_v0) (V c main_arg3)
        (((cfg1.win 5).blk t).view.emb (ix4 u i' j o))
    refine congrArg (Cert.EdgeLayer.edgeUpd (V c main_arg1) (V c main_v2) (V c main_v0) (V c main_arg3))
      (funext fun a => Fin.ext ?_)
    match a with
    | ⟨0, _⟩ => show (grid1.coords t 0).val = win1_5.index t (0 : Fin 4) * 1 + 1 * u.val; omega
    | ⟨1, _⟩ => show 32 * (grid1.coords t 1).val + i'.val = win1_5.index t (1 : Fin 4) * 32 + 1 * i'.val; omega
    | ⟨2, _⟩ => show j.val = win1_5.index t (2 : Fin 4) * 256 + 1 * j.val; omega
    | ⟨3, _⟩ => show o.val = win1_5.index t (3 : Fin 4) * 128 + 1 * o.val; omega

/-! ## The 64 blocks tile the array -/

/-- An entry of the array is in point t's block when each coordinate is in the block's range on its axis. -/
theorem edgeMemBlk (t : Fin cfg1.N) (y : S8x256x256x128.Idx) :
    y ∈ ((cfg1.win 5).blk t).view.set
      ↔ ∀ a : Fin 4, win1_5.index t a * S1x32x256x128.size a ≤ (y a).val
          ∧ (y a).val < win1_5.index t a * S1x32x256x128.size a + S1x32x256x128.size a := by
  show y ∈ ((View.whole main_v3).slice (win1_5.rect t)).set ↔ _
  rw [View.set_slice_whole, Rect.mem_set_unit]
  exact Iff.rfl

/-- Every block (b, i) of the array is some point's. -/
theorem edgeOnto : ∀ (q0 : Fin 8) (q1 : Fin 8), ∃ t : Fin cfg1.N, win1_5.index t = ![q0.val, q1.val, 0, 0] :=
  (by decide +kernel : ∀ (q0 : Fin 8) (q1 : Fin 8), ∃ t : Fin grid1.N, win1_5.index t = ![q0.val, q1.val, 0, 0])

/-- Every entry (b, r, j, o) of the array lies in the block of the point (b, r / 32). -/
theorem edgeCovered (y : S8x256x256x128.Idx) :
    ∃ t : Fin cfg1.N, (cfg1.win 5).flush t = true ∧ y ∈ ((cfg1.win 5).blk t).view.set := by
  have h0 : (y 0).val < 8 := (y 0).isLt
  have h1 : (y 1).val < 256 := (y 1).isLt
  have h2 : (y 2).val < 256 := (y 2).isLt
  have h3 : (y 3).val < 128 := (y 3).isLt
  obtain ⟨t, ht⟩ := edgeOnto ⟨(y 0).val, h0⟩ ⟨(y 1).val / 32, by omega⟩
  have q0 : win1_5.index t (0 : Fin 4) = (y 0).val := congrFun ht 0
  have q1 : win1_5.index t (1 : Fin 4) = (y 1).val / 32 := congrFun ht 1
  have q2 : win1_5.index t (2 : Fin 4) = 0 := congrFun ht 2
  have q3 : win1_5.index t (3 : Fin 4) = 0 := congrFun ht 3
  refine ⟨t, flush1_5 t, ?_⟩
  rw [edgeMemBlk]
  intro a
  match a with
  | ⟨0, _⟩ => show win1_5.index t (0 : Fin 4) * 1 ≤ (y 0).val ∧ (y 0).val < win1_5.index t (0 : Fin 4) * 1 + 1; omega
  | ⟨1, _⟩ => show win1_5.index t (1 : Fin 4) * 32 ≤ (y 1).val ∧ (y 1).val < win1_5.index t (1 : Fin 4) * 32 + 32; omega
  | ⟨2, _⟩ => show win1_5.index t (2 : Fin 4) * 256 ≤ (y 2).val ∧ (y 2).val < win1_5.index t (2 : Fin 4) * 256 + 256; omega
  | ⟨3, _⟩ => show win1_5.index t (3 : Fin 4) * 128 ≤ (y 3).val ∧ (y 3).val < win1_5.index t (3 : Fin 4) * 128 + 128; omega

end EdgeValue

/-! ## The array after the region -/

variable (V : (c : Dev nD) → (b : Ref sig .tc) → Buf (Elt Ideal) ((c : Thread nD τ).loc b))

/-- After the region the output array holds the edge update of the arrays the region was entered from: the edge features
    in `main_arg1`, the node projections in `main_v2`, the transposed weights in `main_v0`, the bias in `main_arg3`. -/
theorem edgeFinal (c : Dev nD) :
    (edgeDat (F := Ideal) V c).arrAt 5 cfg1.N
      = Cert.EdgeLayer.edgeUpd (V c main_arg1) (V c main_v2) (V c main_v0) (V c main_arg3) :=
  (edgeDat (F := Ideal) V c).arrAt_eq_of_cover 5
    (Cert.EdgeLayer.edgeUpd (V c main_arg1) (V c main_v2) (V c main_v0) (V c main_arg3))
    (fun t _ => EdgeValue.edgeFlushed V c t) EdgeValue.edgeCovered

end Cert.KernelIdeal.Frame

end
-- ==== Proof.KernelValue.lean ====
/-
  The program's result at the ideal values: the second region's output array, read through the fold, is the edge update
  of the edge features with the node projection of the node features, each dense layer taking its weight matrix
  transposed (the two host transposes), all as functions of the launch memory.
-/
import proofs.«100669_j2001454760694_1_alg».proof.Proof.RunReadBack
import proofs.«100669_j2001454760694_1_alg».proof.Proof.NodeValue
import proofs.«100669_j2001454760694_1_alg».proof.Proof.EdgeValue

set_option maxRecDepth 16384

noncomputable section

open scoped BigOperators
open Idealize.ShloMosaic Idealize.ShloMosaic.TcCoe Idealize.ShloMosaic.ValueIdx Idealize.SL.Sem

namespace Cert.KernelIdeal.Frame

open Cert.KernelIdeal Cert.KernelIdeal.Gen Idealize.ShloMosaic.Pipeline

variable (m : (ℓ : Loc nD τ sig) → Buf (Elt Ideal) ℓ) (ρ : Dev nD → PrngReg)

/-- The result as a function of the six argument arrays at launch. -/
def result (c : Dev nD) : Buf (Elt Ideal) ((c.tc : Thread nD τ).loc main_v3) :=
  Cert.EdgeLayer.edgeUpd (m ((c.tc : Thread nD τ).loc main_arg1))
    (Cert.EdgeLayer.nodeProj (m ((c.tc : Thread nD τ).loc main_arg0))
      (transpose S128x128 [1, 0] (m ((c.tc : Thread nD τ).loc main_arg4)) transposes_S128x128_S128x128_1_0)
      (m ((c.tc : Thread nD τ).loc main_arg5)))
    (transpose S128x128 [1, 0] (m ((c.tc : Thread nD τ).loc main_arg2)) transposes_S128x128_S128x128_1_0)
    (m ((c.tc : Thread nD τ).loc main_arg3))

/-- The node projections' array after the first region, as a function of the launch memory. -/
theorem nodeArray_eq (c : Dev nD) :
    W2 (F := Ideal) m ρ c (Proc.devRef .tc main_v2)
      = Cert.EdgeLayer.nodeProj (m ((c.tc : Thread nD τ).loc main_arg0))
          (transpose S128x128 [1, 0] (m ((c.tc : Thread nD τ).loc main_arg4)) transposes_S128x128_S128x128_1_0)
          (m ((c.tc : Thread nD τ).loc main_arg5)) := by
  rw [W2_v2, nodeFinal (V1 m ρ) c]
  show Cert.EdgeLayer.nodeProj (W1 m ρ c (Proc.devRef .tc main_arg0)) (W1 m ρ c (Proc.devRef .tc main_v1)) (W1 m ρ c (Proc.devRef .tc main_arg5)) = _
  rw [W1_arg0, W1_v1, W1_arg5]

/-- The result array after the second region, as a function of the launch memory. -/
theorem resultArray_eq (c : Dev nD) : W3 (F := Ideal) m ρ c (Proc.devRef .tc main_v3) = result m c := by
  rw [W3_out, edgeFinal (V2 m ρ) c]
  show Cert.EdgeLayer.edgeUpd (W2 m ρ c (Proc.devRef .tc main_arg1)) (W2 m ρ c (Proc.devRef .tc main_v2)) (W2 m ρ c (Proc.devRef .tc main_v0))
    (W2 m ρ c (Proc.devRef .tc main_arg3)) = _
  rw [W2_arg1, nodeArray_eq, W2_v0, W2_arg3]
  rfl

/-- THE VALUE RUN: every weakly fair execution terminates, nothing faulting, the result array at `result` of the launch
    memory and the argument arrays as launched. -/
theorem run_value : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v3 (by decide))).trans (resultArray_eq m ρ c),
     (h c _ (mem_uc main_arg0 (by decide))).trans (W3_arg0 m ρ c), (h c _ (mem_uc main_arg1 (by decide))).trans (W3_arg1 m ρ c),
     (h c _ (mem_uc main_arg2 (by decide))).trans (W3_arg2 m ρ c), (h c _ (mem_uc main_arg3 (by decide))).trans (W3_arg3 m ρ c),
     (h c _ (mem_uc main_arg4 (by decide))).trans (W3_arg4 m ρ c), (h c _ (mem_uc main_arg5 (by decide))).trans (W3_arg5 m ρ c)⟩)
    (run_all m ρ)

end Cert.KernelIdeal.Frame

end
-- ==== Proof.RefValue.lean ====
/-
  The reference at the ideal values is the edge update of the node projection: its two contractions run over the
  weights' SECOND axis (entry (o, k)), which is the transposed matrix's entry (k, o).
-/
import proofs.«100669_j2001454760694_1_alg».proof.Proof.Gen.ReferenceIdeal.Read
import proofs.«100669_j2001454760694_1_alg».proof.KernelIdeal
import proofs.«100669_j2001454760694_1_alg».proof.Proof.EdgeLayerSpec
import Idealize.ShloMosaic.Lib.ValueLayout

set_option maxRecDepth 16384

noncomputable section

open scoped BigOperators
open Idealize.ShloMosaic Idealize.ShloMosaic.TcCoe Idealize.ShloMosaic.ValueIdx Idealize.SL.Sem

namespace Cert.ReferenceIdeal.RefValue

open Cert.ReferenceIdeal Cert.ReferenceIdeal.Read

/-! ## The index functions of the reference's stages, at explicit coordinates -/

/-- The node contraction reads x at (b, n, k). -/
theorem lidx_node_ix (b : Fin 8) (n : Fin 256) (o k : Fin 128) :
    lidx_main_v4 (ix3 b n o) k = ix3 b n k :=
  funext fun a => match a with | ⟨0, _⟩ => rfl | ⟨1, _⟩ => rfl | ⟨2, _⟩ => rfl

/-- The node contraction reads its weights at (o, k). -/
theorem ridx_node_ix (b : Fin 8) (n : Fin 256) (o k : Fin 128) :
    ridx_main_v4 (ix3 b n o) k = ix2 o k :=
  funext fun a => match a with | ⟨0, _⟩ => rfl | ⟨1, _⟩ => rfl

/-- The node bias, broadcast twice, is read at (o). -/
theorem idx_nodeBias_ix (b : Fin 8) (n : Fin 256) (o : Fin 128) :
    idx_main_v5 (idx_main_v6 (ix3 b n o)) = ix1 o :=
  funext fun a => match a with | ⟨0, _⟩ => rfl

/-- The edge contraction reads e at (b, i, j, k). -/
theorem lidx_edge_ix (b : Fin 8) (i j : Fin 256) (o k : Fin 128) :
    lidx_main_v0 (ix4 b i j o) k = ix4 b i j k :=
  funext fun a => match a with | ⟨0, _⟩ => rfl | ⟨1, _⟩ => rfl | ⟨2, _⟩ => rfl | ⟨3, _⟩ => rfl

/-- The edge contraction reads its weights at (o, k). -/
theorem ridx_edge_ix (b : Fin 8) (i j : Fin 256) (o k : Fin 128) :
    ridx_main_v0 (ix4 b i j o) k = ix2 o k :=
  funext fun a => match a with | ⟨0, _⟩ => rfl | ⟨1, _⟩ => rfl

/-- The edge bias, broadcast twice, is read at (o). -/
theorem idx_edgeBias_ix (b : Fin 8) (i j : Fin 256) (o : Fin 128) :
    idx_main_v1 (idx_main_v2 (ix4 b i j o)) = ix1 o :=
  funext fun a => match a with | ⟨0, _⟩ => rfl

/-- The node stage broadcast along the column-node axis is read at the row node: (b, i, o). -/
theorem idx_rowNode_ix (b : Fin 8) (i j : Fin 256) (o : Fin 128) :
    idx_main_v8 (idx_main_v9 (ix4 b i j o)) = ix3 b i o :=
  funext fun a => match a with | ⟨0, _⟩ => rfl | ⟨1, _⟩ => rfl | ⟨2, _⟩ => rfl

/-- The node stage broadcast along the row-node axis is read at the column node: (b, j, o). -/
theorem idx_colNode_ix (b : Fin 8) (i j : Fin 256) (o : Fin 128) :
    idx_main_v11 (idx_main_v12 (ix4 b i j o)) = ix3 b j o :=
  funext fun a => match a with | ⟨0, _⟩ => rfl | ⟨1, _⟩ => rfl | ⟨2, _⟩ => rfl

/-! ## The two dense layers at a point -/

/-- The reference's node stage (contraction over the weights' second axis, plus the bias) at (b, n, o) is the node
    projection with the weights transposed. -/
theorem nodeStage_ix (x : (⟨S8x256x128, .f32⟩ : BufTy).Contents (Elt Ideal))
    (vw : (⟨S128x128, .f32⟩ : BufTy).Contents (Elt Ideal)) (vb : (⟨S128, .f32⟩ : BufTy).Contents (Elt Ideal))
    (h : Cert.KernelIdeal.S128x128.Transposes [1, 0] Cert.KernelIdeal.S128x128)
    (b : Fin 8) (n : Fin 256) (o : Fin 128) :
    val_main_v7 (F := Ideal) x vw vb (ix3 b n o)
      = Cert.EdgeLayer.nodeProjAt x (transpose Cert.KernelIdeal.S128x128 [1, 0] vw h) vb b n o := by
  rw [val_main_v7_apply, val_main_v4_apply, val_main_v6_apply, val_main_v5_apply, Ideal.addf_def, idx_nodeBias_ix]
  unfold Cert.EdgeLayer.nodeProjAt
  congr 1
  refine Finset.sum_congr rfl fun k _ => ?_
  rw [lidx_node_ix, ridx_node_ix, transpose_ix2_apply]

/-- The reference's edge stage before the node terms (contraction over the weights' second axis, plus the bias) at
    (b, i, j, o). -/
theorem edgeStage_ix (e : (⟨S8x256x256x128, .f32⟩ : BufTy).Contents (Elt Ideal))
    (uw : (⟨S128x128, .f32⟩ : BufTy).Contents (Elt Ideal)) (ub : (⟨S128, .f32⟩ : BufTy).Contents (Elt Ideal))
    (h : Cert.KernelIdeal.S128x128.Transposes [1, 0] Cert.KernelIdeal.S128x128)
    (b : Fin 8) (i j : Fin 256) (o : Fin 128) :
    val_main_v3 (F := Ideal) e uw ub (ix4 b i j o)
      = (∑ k : Fin 128, e (ix4 b i j k) * transpose Cert.KernelIdeal.S128x128 [1, 0] uw h (ix2 k o)) + ub (ix1 o) := by
  rw [val_main_v3_apply, val_main_v0_apply, val_main_v2_apply, val_main_v1_apply, Ideal.addf_def, idx_edgeBias_ix]
  congr 1
  refine Finset.sum_congr rfl fun k _ => ?_
  rw [lidx_edge_ix, ridx_edge_ix, transpose_ix2_apply]

/-- The reference's result, as a function of its six arguments (x, e, U_w, U_b, V_w, V_b), is the edge update of e with
    the node projection of x, each dense layer taking its weight matrix transposed. -/
theorem ref_eq (x : (⟨S8x256x128, .f32⟩ : BufTy).Contents (Elt Ideal)) (e : (⟨S8x256x256x128, .f32⟩ : BufTy).Contents (Elt Ideal))
    (uw : (⟨S128x128, .f32⟩ : BufTy).Contents (Elt Ideal)) (ub : (⟨S128, .f32⟩ : BufTy).Contents (Elt Ideal))
    (vw : (⟨S128x128, .f32⟩ : BufTy).Contents (Elt Ideal)) (vb : (⟨S128, .f32⟩ : BufTy).Contents (Elt Ideal))
    (h : Cert.KernelIdeal.S128x128.Transposes [1, 0] Cert.KernelIdeal.S128x128) :
    val_main_v13 (F := Ideal) x e uw ub vw vb
      = Cert.EdgeLayer.edgeUpd e
          (Cert.EdgeLayer.nodeProj x (transpose Cert.KernelIdeal.S128x128 [1, 0] vw h) vb)
          (transpose Cert.KernelIdeal.S128x128 [1, 0] uw h) ub := by
  funext y
  obtain ⟨b, i, j, o, rfl⟩ : ∃ b i j o, y = ix4 b i j o := ⟨y 0, y 1, y 2, y 3, eq_ix4 y⟩
  rw [Cert.EdgeLayer.edgeUpd_ix]
  unfold Cert.EdgeLayer.edgeUpdAt
  rw [val_main_v13_apply, val_main_v10_apply, val_main_v12_apply, val_main_v11_apply, val_main_v9_apply,
    val_main_v8_apply, idx_rowNode_ix, idx_colNode_ix, Ideal.addf_def, Ideal.addf_def,
    edgeStage_ix e uw ub h, nodeStage_ix x vw vb h, nodeStage_ix x vw vb h,
    Cert.EdgeLayer.nodeProj_ix, Cert.EdgeLayer.nodeProj_ix]

end Cert.ReferenceIdeal.RefValue

end
-- ==== Proof.lean ====
/-
  The edge-feature layer: e_new (b, i, j, ·) = U e (b, i, j, ·) + U_b + (V x (b, i, ·) + V_b) + (V x (b, j, ·) + V_b).

  The kernel computes it in two regions after transposing both weight matrices on the host: the node projection
  V x + V_b, one batch entry per grid point, and then the edge update, a block of 32 rows of one batch entry per grid
  point, which reads the node projections through two windows (the rows of the block, and all columns of the batch
  entry). The reference contracts over the weights' second axis directly. At the ideal values (floats are extended reals,
  a change of float format is the identity, the matrix unit's product into a zero accumulator is the plain sum) both are
  the same sums and the same three additions in the same grouping, so the two results agree entry by entry with no
  algebra beyond reading a transposed matrix at (k, o) as the matrix at (o, k); the precondition is never opened.

  Frames: both printed programs (the same text in two namespaces) run through one proof text, generic in the float
  instance: the launch, the two transposes, and each region entered from "every unscoped buffer at known contents" and
  left at the same, the node projections' array lent to the second region's two windows as its two half shares. The
  reference has no kernel; its frame is its run with the result dropped. The ideal pass rewrote nothing, so there is
  nothing to preserve.
-/
import proofs.«100669_j2001454760694_1_alg».proof.Defs
import proofs.«100669_j2001454760694_1_alg».proof.Proof.Gen.Kernel
import proofs.«100669_j2001454760694_1_alg».proof.Proof.Gen.KernelIdeal
import proofs.«100669_j2001454760694_1_alg».proof.Proof.Gen.ReferenceIdeal
import proofs.«100669_j2001454760694_1_alg».proof.Proof.Gen.ReferenceIdeal.Run
import proofs.«100669_j2001454760694_1_alg».proof.Proof.Gen.ReferenceIdeal.Read
import proofs.«100669_j2001454760694_1_alg».proof.Proof.Gen.Pre_finite_inputs
import proofs.«100669_j2001454760694_1_alg».proof.Proof.BitsRunReadBack
import proofs.«100669_j2001454760694_1_alg».proof.Proof.RunReadBack
import proofs.«100669_j2001454760694_1_alg».proof.Proof.KernelValue
import proofs.«100669_j2001454760694_1_alg».proof.Proof.RefValue
import Idealize.ShloMosaic.Adequacy
import Idealize.ShloMosaic.Init

noncomputable section

namespace Cert.Proof

open Idealize.ShloMosaic Idealize.ShloMosaic.TcCoe Idealize.SL.Sem

/-- The program as printed runs to the end, nothing faulting, its arguments unchanged. -/
theorem frame_kernel : Cert.frame_Kernel := fun m ρ _ => Cert.Kernel.Frame.frame_all m ρ

/-- So does its idealization. -/
theorem frame_kernelIdeal : Cert.frame_KernelIdeal := fun m ρ _ => Cert.KernelIdeal.Frame.frame_all m ρ

/-- The reference is host operations only: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the six arguments both programs end with the edge update of the edge features with the
    node projection of the node features, each dense layer's weight matrix read transposed. -/
theorem algebraic : Cert.algebraic_KernelIdeal_ReferenceIdeal := by
  intro m ρ m' ρ' _ hagree
  refine ⟨fun c => Cert.KernelIdeal.Frame.result m c, Cert.KernelIdeal.Frame.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  unfold Cert.KernelIdeal.Frame.result
  exact (Cert.ReferenceIdeal.Read.val_main_v13_eq _ _ _ _ _ _).trans (Cert.ReferenceIdeal.RefValue.ref_eq _ _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
